-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x900x92 : Shape := ⟨3, ![16, 900, 92]⟩
abbrev S16x900x4 : Shape := ⟨3, ![16, 900, 4]⟩
abbrev S960 : Shape := ⟨1, ![960]⟩
abbrev S960x4 : Shape := ⟨2, ![960, 4]⟩
abbrev S_ : Shape := ⟨0, ![]⟩

class Facts : Prop where
  bcast_S_S16x900x92 : S_.BroadcastsInDim S16x900x92 (![] : Fin 0 → Fin S16x900x92.rank)
  reducesTo_S16x900x92_S_d0_1_2 : S16x900x92.ReducesTo [0, 1, 2] S_
  h_S_ : 0 < S_.numel
  bcast_S_S16x900x4 : S_.BroadcastsInDim S16x900x4 (![] : Fin 0 → Fin S16x900x4.rank)
  reducesTo_S16x900x4_S_d0_1_2 : S16x900x4.ReducesTo [0, 1, 2] S_
  bcast_S_S960x4 : S_.BroadcastsInDim S960x4 (![] : Fin 0 → Fin S960x4.rank)
  reducesTo_S960x4_S_d0_1 : S960x4.ReducesTo [0, 1] S_
  bcast_S_S960 : S_.BroadcastsInDim S960 (![] : Fin 0 → Fin S960.rank)
  reducesTo_S960_S_d0 : S960.ReducesTo [0] S_

variable [Facts]

def fn_part1 {F : FTy → Type} [FloatOps F] (main_arg2 : IVec S960 32) (main_v13 : IVec S_ 1) (main_v15 : IVec S960 1) (main_c_5 : IVec S_ 32) : IVec S_ 1 :=
  let main_v16 : IVec S960 32 := broadcastInDim S960 ![] bcast_S_S960 main_c_5
  let main_v17 : IVec S960 1 := cmpi .slt main_arg2 main_v16
  let main_v18 : IVec S960 1 := andi main_v15 main_v17
  let main_c_6 : IVec S_ 1 := constantI S_ 1 1#1
  let main_v19 : IVec S_ 1 := (fun x v => Host.reduce IntOp.andi x v reducesTo_S960_S_d0 h_S_) main_v18 main_c_6
  let main_v20 : IVec S_ 1 := andi main_v13 main_v19
  main_v20

def fn {F : FTy → Type} [FloatOps F] (main_arg0 : FVec F S16x900x92 .f32) (main_arg1 : FVec F S16x900x4 .f32) (main_arg2 : IVec S960 32) (main_arg3 : FVec F S960x4 .f32) : IVec S_ 1 :=
  let main_v0 : FVec F S16x900x92 .f32 := Host.absf main_arg0
  let main_cst : FVec F S_ .f32 := constant S_ .f32 0x7F800000#32
  let main_v1 : FVec F S16x900x92 .f32 := broadcastInDim S16x900x92 ![] bcast_S_S16x900x92 main_cst
  let main_v2 : IVec S16x900x92 1 := cmpf .olt main_v0 main_v1
  let main_c : IVec S_ 1 := constantI S_ 1 1#1
  let main_v3 : IVec S_ 1 := (fun x v => Host.reduce IntOp.andi x v reducesTo_S16x900x92_S_d0_1_2 h_S_) main_v2 main_c
  let main_v4 : FVec F S16x900x4 .f32 := Host.absf main_arg1
  let main_cst_0 : FVec F S_ .f32 := constant S_ .f32 0x7F800000#32
  let main_v5 : FVec F S16x900x4 .f32 := broadcastInDim S16x900x4 ![] bcast_S_S16x900x4 main_cst_0
  let main_v6 : IVec S16x900x4 1 := cmpf .olt main_v4 main_v5
  let main_c_1 : IVec S_ 1 := constantI S_ 1 1#1
  let main_v7 : IVec S_ 1 := (fun x v => Host.reduce IntOp.andi x v reducesTo_S16x900x4_S_d0_1_2 h_S_) main_v6 main_c_1
  let main_v8 : IVec S_ 1 := andi main_v3 main_v7
  let main_v9 : FVec F S960x4 .f32 := Host.absf main_arg3
  let main_cst_2 : FVec F S_ .f32 := constant S_ .f32 0x7F800000#32
  let main_v10 : FVec F S960x4 .f32 := broadcastInDim S960x4 ![] bcast_S_S960x4 main_cst_2
  let main_v11 : IVec S960x4 1 := cmpf .olt main_v9 main_v10
  let main_c_3 : IVec S_ 1 := constantI S_ 1 1#1
  let main_v12 : IVec S_ 1 := (fun x v => Host.reduce IntOp.andi x v reducesTo_S960x4_S_d0_1 h_S_) main_v11 main_c_3
  let main_v13 : IVec S_ 1 := andi main_v8 main_v12
  let main_c_4 : IVec S_ 32 := constantI S_ 32 0#32
  let main_v14 : IVec S960 32 := broadcastInDim S960 ![] bcast_S_S960 main_c_4
  let main_v15 : IVec S960 1 := cmpi .sge main_arg2 main_v14
  let main_c_5 : IVec S_ 32 := constantI S_ 32 92#32
  fn_part1 (F := F) main_arg2 main_v13 main_v15 main_c_5
-- ==== Kernel.lean ====
abbrev S16x900x92 : Shape := ⟨3, ![16, 900, 92]⟩
abbrev S16x900x4 : Shape := ⟨3, ![16, 900, 4]⟩
abbrev S960 : Shape := ⟨1, ![960]⟩
abbrev S960x4 : Shape := ⟨2, ![960, 4]⟩
abbrev S92 : Shape := ⟨1, ![92]⟩
abbrev S1x960 : Shape := ⟨2, ![1, 960]⟩
abbrev S92x1 : Shape := ⟨2, ![92, 1]⟩
abbrev S92x960 : Shape := ⟨2, ![92, 960]⟩
abbrev S16x900x960 : Shape := ⟨3, ![16, 900, 960]⟩
abbrev S1x128x92 : Shape := ⟨3, ![1, 128, 92]⟩
abbrev S1x128x4 : Shape := ⟨3, ![1, 128, 4]⟩
abbrev S1x128x960 : Shape := ⟨3, ![1, 128, 960]⟩
abbrev S128x92 : Shape := ⟨2, ![128, 92]⟩
abbrev S128x4 : Shape := ⟨2, ![128, 4]⟩
abbrev S128 : Shape := ⟨1, ![128]⟩
abbrev S128x1 : Shape := ⟨2, ![128, 1]⟩
abbrev S128x960 : Shape := ⟨2, ![128, 960]⟩
abbrev S960x1 : Shape := ⟨2, ![960, 1]⟩

abbrev nBuf : Space → Nat
  | .hbm => 12
  | .vmem => 8
  | .smem => 0
  | _ => 0

abbrev bufTy : (tb : Table) → Fin (tcTables nBuf tb) → BufTy
  | .hbm, ⟨0, _⟩ => ⟨S16x900x92, .f32⟩
  | .hbm, ⟨1, _⟩ => ⟨S16x900x4, .f32⟩
  | .hbm, ⟨2, _⟩ => ⟨S960, .i32⟩
  | .hbm, ⟨3, _⟩ => ⟨S960x4, .f32⟩
  | .hbm, ⟨4, _⟩ => ⟨S92, .i32⟩
  | .hbm, ⟨5, _⟩ => ⟨S1x960, .i32⟩
  | .hbm, ⟨6, _⟩ => ⟨S92x1, .i32⟩
  | .hbm, ⟨7, _⟩ => ⟨S92x960, .i32⟩
  | .hbm, ⟨8, _⟩ => ⟨S92x960, .i32⟩
  | .hbm, ⟨9, _⟩ => ⟨S92x960, .i1⟩
  | .hbm, ⟨10, _⟩ => ⟨S92x960, .f32⟩
  | .hbm, ⟨11, _⟩ => ⟨S16x900x960, .f32⟩
  | .local _ .vmem, ⟨0, _⟩ => ⟨S1x128x92, .f32⟩
  | .local _ .vmem, ⟨1, _⟩ => ⟨S1x128x92, .f32⟩
  | .local _ .vmem, ⟨2, _⟩ => ⟨S1x128x4, .f32⟩
  | .local _ .vmem, ⟨3, _⟩ => ⟨S1x128x4, .f32⟩
  | .local _ .vmem, ⟨4, _⟩ => ⟨S960x4, .f32⟩
  | .local _ .vmem, ⟨5, _⟩ => ⟨S92x960, .f32⟩
  | .local _ .vmem, ⟨6, _⟩ => ⟨S1x128x960, .f32⟩
  | .local _ .vmem, ⟨7, _⟩ => ⟨S1x128x960, .f32⟩
  | _, _ => ⟨S16x900x92, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x92 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S960x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S92x960 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x960 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S960_S1x960_1 : S960.BroadcastsInDim S1x960 (![1] : Fin 1 → Fin S1x960.rank)
  bcast_S92_S92x1_0 : S92.BroadcastsInDim S92x1 (![0] : Fin 1 → Fin S92x1.rank)
  bcast_S1x960_S92x960_0_1 : S1x960.BroadcastsInDim S92x960 (![0, 1] : Fin 2 → Fin S92x960.rank)
  bcast_S92x1_S92x960_0_1 : S92x1.BroadcastsInDim S92x960 (![0, 1] : Fin 2 → Fin S92x960.rank)
  inb_S1x128x92_S1x128x92_0_0_0 : ∀ a, (![0, 0, 0] : Fin 3 → Nat) a + S1x128x92.size a ≤ S1x128x92.size a
  h_S1x128x92 : 0 < S1x128x92.numel
  shapeCasts_S1x128x92_S128x92 : S1x128x92.ShapeCasts S128x92
  inb_S1x128x4_S1x128x4_0_0_0 : ∀ a, (![0, 0, 0] : Fin 3 → Nat) a + S1x128x4.size a ≤ S1x128x4.size a
  h_S1x128x4 : 0 < S1x128x4.numel
  shapeCasts_S1x128x4_S128x4 : S1x128x4.ShapeCasts S128x4
  inb_S960x4_S960x4_0_0 : ∀ a, (![0, 0] : Fin 2 → Nat) a + S960x4.size a ≤ S960x4.size a
  h_S960x4 : 0 < S960x4.numel
  inb_S92x960_S92x960_0_0 : ∀ a, (![0, 0] : Fin 2 → Nat) a + S92x960.size a ≤ S92x960.size a
  h_S92x960 : 0 < S92x960.numel
  shapeCasts_S92x960_S92x960 : S92x960.ShapeCasts S92x960
  reduces_S128x92_S128 : S128x92.Reduces [1] S128
  shapeCasts_S128_S128x1 : S128.ShapeCasts S128x1
  broadcasts_S128x1_S128x92 : S128x1.Broadcasts S128x92
  slices_S128x4_o0_0_S128x1 : S128x4.Slices ![0, 0] S128x1
  slices_S128x4_o0_1_S128x1 : S128x4.Slices ![0, 1] S128x1
  slices_S128x4_o0_2_S128x1 : S128x4.Slices ![0, 2] S128x1
  slices_S128x4_o0_3_S128x1 : S128x4.Slices ![0, 3] S128x1
  slices_S960x4_o0_0_S960x1 : S960x4.Slices ![0, 0] S960x1
  shapeCasts_S960x1_S960 : S960x1.ShapeCasts S960
  shapeCasts_S960_S1x960 : S960.ShapeCasts S1x960
  slices_S960x4_o0_1_S960x1 : S960x4.Slices ![0, 1] S960x1
  slices_S960x4_o0_2_S960x1 : S960x4.Slices ![0, 2] S960x1
  slices_S960x4_o0_3_S960x1 : S960x4.Slices ![0, 3] S960x1
  broadcasts_S128x1_S128x960 : S128x1.Broadcasts S128x960
  broadcasts_S1x960_S128x960 : S1x960.Broadcasts S128x960
  inb_S1x128x960_S1x128x960_0_0_0 : ∀ a, (![0, 0, 0] : Fin 3 → Nat) a + S1x128x960.size a ≤ S1x128x960.size a
  h_S1x128x960 : 0 < S1x128x960.numel
  shapeCasts_S1x128x960_S128x960 : S1x128x960.ShapeCasts S128x960
  shapeCasts_S128x960_S1x128x960 : S128x960.ShapeCasts S1x128x960
  dot_S128x92_S92x960_S128x960_1_0_0_1_n_n_wf : DotDims.WF S128x92 S92x960 S128x960 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x128x92.size a < S16x900x92.size a
  hwx0_0 : ∀ i : grid0.Coords, EltTy.bits .f32 = 32 ∨ (Rect.unit (s := S16x900x92) (fun a => cc0_transform_0 i a * S1x128x92.size a) (fun a => (Pipeline.Clip.of (cc0_transform_0 i a) (S1x128x92.size a) (S16x900x92.size a)).extent (S1x128x92.size a)) fun a => Pipeline.Clip.inb (Pipeline.Clip.ok_of (hstart0_0 i a))).WholeWords (EltTy.packing .f32)
  hwxs0_0 : ∀ i : grid0.Coords, EltTy.bits .f32 = 32 ∨ (Rect.unit (s := S1x128x92) (fun _ => 0) (fun a => (Pipeline.Clip.of (cc0_transform_0 i a) (S1x128x92.size a) (S16x900x92.size a)).extent (S1x128x92.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x128x4.size a < S16x900x4.size a
  hwx0_1 : ∀ i : grid0.Coords, EltTy.bits .f32 = 32 ∨ (Rect.unit (s := S16x900x4) (fun a => cc0_transform_1 i a * S1x128x4.size a) (fun a => (Pipeline.Clip.of (cc0_transform_1 i a) (S1x128x4.size a) (S16x900x4.size a)).extent (S1x128x4.size a)) fun a => Pipeline.Clip.inb (Pipeline.Clip.ok_of (hstart0_1 i a))).WholeWords (EltTy.packing .f32)
  hwxs0_1 : ∀ i : grid0.Coords, EltTy.bits .f32 = 32 ∨ (Rect.unit (s := S1x128x4) (fun _ => 0) (fun a => (Pipeline.Clip.of (cc0_transform_1 i a) (S1x128x4.size a) (S16x900x4.size a)).extent (S1x128x4.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S960x4.size a ≤ S960x4.size a
  hwx0_2 : ∀ i : grid0.Coords, EltTy.bits .f32 = 32 ∨ (Rect.block (s := S960x4) S960x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S92x960.size a ≤ S92x960.size a
  hwx0_3 : ∀ i : grid0.Coords, EltTy.bits .f32 = 32 ∨ (Rect.block (s := S92x960) S92x960.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x128x960.size a < S16x900x960.size a
  hwx0_4 : ∀ i : grid0.Coords, EltTy.bits .f32 = 32 ∨ (Rect.unit (s := S16x900x960) (fun a => cc0_transform_4 i a * S1x128x960.size a) (fun a => (Pipeline.Clip.of (cc0_transform_4 i a) (S1x128x960.size a) (S16x900x960.size a)).extent (S1x128x960.size a)) fun a => Pipeline.Clip.inb (Pipeline.Clip.ok_of (hstart0_4 i a))).WholeWords (EltTy.packing .f32)
  hwxs0_4 : ∀ i : grid0.Coords, EltTy.bits .f32 = 32 ∨ (Rect.unit (s := S1x128x960) (fun _ => 0) (fun a => (Pipeline.Clip.of (cc0_transform_4 i a) (S1x128x960.size a) (S16x900x960.size a)).extent (S1x128x960.size a)) fun a => (Nat.zero_add _).trans_le (Pipeline.Clip.extent_le (Pipeline.Clip.ok_of (hstart0_4 i a)))).WholeWords (EltTy.packing .f32)

variable [Facts₀]

def dot_S128x92_S92x960_S128x960_1_0_0_1_n_n : DotDims S128x92 S92x960 S128x960 where
  lhsContracting := [1]
  rhsContracting := [0]
  lhsNonContracting := [0]
  rhsNonContracting := [1]
  lhsBatch := []
  rhsBatch := []
  wf := dot_S128x92_S92x960_S128x960_1_0_0_1_n_n_wf

abbrev win0_0 : Pipeline.Window sig grid0 :=
  Pipeline.Window.ofSpecClip (Memref.whole main_arg0) S1x128x92.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S1x128x4.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg3) S960x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S92x960.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v7) S1x128x960.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x900x92 : Shape := ⟨3, ![16, 900, 92]⟩
abbrev S16x900x4 : Shape := ⟨3, ![16, 900, 4]⟩
abbrev S960 : Shape := ⟨1, ![960]⟩
abbrev S960x4 : Shape := ⟨2, ![960, 4]⟩
abbrev S14400x92 : Shape := ⟨2, ![14400, 92]⟩
abbrev S_ : Shape := ⟨0, ![]⟩
abbrev S14400 : Shape := ⟨1, ![14400]⟩
abbrev S14400x1 : Shape := ⟨2, ![14400, 1]⟩
abbrev S960x1 : Shape := ⟨2, ![960, 1]⟩
abbrev S14400x960 : Shape := ⟨2, ![14400, 960]⟩
abbrev S14400x4 : Shape := ⟨2, ![14400, 4]⟩
abbrev S14400x1x4 : Shape := ⟨3, ![14400, 1, 4]⟩
abbrev S1x960x4 : Shape := ⟨3, ![1, 960, 4]⟩
abbrev S14400x960x4 : Shape := ⟨3, ![14400, 960, 4]⟩
abbrev S14400x2 : Shape := ⟨2, ![14400, 2]⟩
abbrev S14400x1x2 : Shape := ⟨3, ![14400, 1, 2]⟩
abbrev S960x2 : Shape := ⟨2, ![960, 2]⟩
abbrev S1x960x2 : Shape := ⟨3, ![1, 960, 2]⟩
abbrev S14400x960x2 : Shape := ⟨3, ![14400, 960, 2]⟩
abbrev S14400x960x1 : Shape := ⟨3, ![14400, 960, 1]⟩
abbrev S1x960 : Shape := ⟨2, ![1, 960]⟩
abbrev S16x900x960 : Shape := ⟨3, ![16, 900, 960]⟩

abbrev nBuf : Space → Nat
  | .hbm => 164
  | .vmem => 0
  | .smem => 0
  | _ => 0

abbrev hbmTy0_0 (i : Nat) : BufTy := match i % 128 with
  | 0 => ⟨S16x900x92, .f32⟩
  | 1 => ⟨S16x900x4, .f32⟩
  | 2 => ⟨S960, .i32⟩
  | 3 => ⟨S960x4, .f32⟩
  | 4 => ⟨S14400x92, .f32⟩
  | 5 => ⟨S_, .f32⟩
  | 6 => ⟨S14400, .f32⟩
  | 7 => ⟨S_, .f32⟩
  | 8 => ⟨S14400, .f32⟩
  | 9 => ⟨S14400, .f32⟩
  | 10 => ⟨S14400x1, .f32⟩
  | 11 => ⟨S14400x92, .f32⟩
  | 12 => ⟨S14400x92, .f32⟩
  | 13 => ⟨S14400x92, .f32⟩
  | 14 => ⟨S_, .f32⟩
  | 15 => ⟨S14400, .f32⟩
  | 16 => ⟨S14400x1, .f32⟩
  | 17 => ⟨S14400x92, .f32⟩
  | 18 => ⟨S14400x92, .f32⟩
  | 19 => ⟨S_, .i32⟩
  | 20 => ⟨S960, .i32⟩
  | 21 => ⟨S960, .i1⟩
  | 22 => ⟨S_, .i32⟩
  | 23 => ⟨S960, .i32⟩
  | 24 => ⟨S960, .i32⟩
  | 25 => ⟨S960, .i32⟩
  | 26 => ⟨S960x1, .i32⟩
  | 27 => ⟨S14400x960, .f32⟩
  | 28 => ⟨S_, .f32⟩
  | 29 => ⟨S14400x960, .f32⟩
  | 30 => ⟨S14400x960, .f32⟩
  | 31 => ⟨S14400x4, .f32⟩
  | 32 => ⟨S14400x1x4, .f32⟩
  | 33 => ⟨S1x960x4, .f32⟩
  | 34 => ⟨S14400x960x4, .f32⟩
  | 35 => ⟨S14400x960x4, .f32⟩
  | 36 => ⟨S14400x960x4, .f32⟩
  | 37 => ⟨S14400x960x4, .f32⟩
  | 38 => ⟨S_, .f32⟩
  | 39 => ⟨S14400x960, .f32⟩
  | 40 => ⟨S14400x1, .f32⟩
  | 41 => ⟨S14400, .f32⟩
  | 42 => ⟨S14400x1, .f32⟩
  | 43 => ⟨S14400, .f32⟩
  | 44 => ⟨S14400x1, .f32⟩
  | 45 => ⟨S14400, .f32⟩
  | 46 => ⟨S14400x1, .f32⟩
  | 47 => ⟨S14400, .f32⟩
  | 48 => ⟨S_, .f32⟩
  | 49 => ⟨S14400, .f32⟩
  | 50 => ⟨S14400, .f32⟩
  | 51 => ⟨S14400, .f32⟩
  | 52 => ⟨S_, .f32⟩
  | 53 => ⟨S14400, .f32⟩
  | 54 => ⟨S14400, .f32⟩
  | 55 => ⟨S14400, .f32⟩
  | 56 => ⟨S_, .f32⟩
  | 57 => ⟨S14400, .f32⟩
  | 58 => ⟨S14400, .f32⟩
  | 59 => ⟨S14400, .f32⟩
  | 60 => ⟨S_, .f32⟩
  | 61 => ⟨S14400, .f32⟩
  | 62 => ⟨S14400, .f32⟩
  | 63 => ⟨S14400, .f32⟩
  | 64 => ⟨S14400x1, .f32⟩
  | 65 => ⟨S14400x1, .f32⟩
  | 66 => ⟨S14400x1, .f32⟩
  | 67 => ⟨S14400x1, .f32⟩
  | 68 => ⟨S14400x4, .f32⟩
  | 69 => ⟨S14400x1, .f32⟩
  | 70 => ⟨S14400, .f32⟩
  | 71 => ⟨S14400x1, .f32⟩
  | 72 => ⟨S14400, .f32⟩
  | 73 => ⟨S14400, .f32⟩
  | 74 => ⟨S14400x1, .f32⟩
  | 75 => ⟨S14400, .f32⟩
  | 76 => ⟨S14400x1, .f32⟩
  | 77 => ⟨S14400, .f32⟩
  | 78 => ⟨S14400, .f32⟩
  | 79 => ⟨S14400, .f32⟩
  | 80 => ⟨S960x1, .f32⟩
  | 81 => ⟨S960, .f32⟩
  | 82 => ⟨S960x1, .f32⟩
  | 83 => ⟨S960, .f32⟩
  | 84 => ⟨S960, .f32⟩
  | 85 => ⟨S960x1, .f32⟩
  | 86 => ⟨S960, .f32⟩
  | 87 => ⟨S960x1, .f32⟩
  | 88 => ⟨S960, .f32⟩
  | 89 => ⟨S960, .f32⟩
  | 90 => ⟨S960, .f32⟩
  | 91 => ⟨S14400x2, .f32⟩
  | 92 => ⟨S14400x1x2, .f32⟩
  | 93 => ⟨S960x2, .f32⟩
  | 94 => ⟨S1x960x2, .f32⟩
  | 95 => ⟨S14400x960x2, .f32⟩
  | 96 => ⟨S14400x960x2, .f32⟩
  | 97 => ⟨S14400x960x2, .f32⟩
  | 98 => ⟨S14400x2, .f32⟩
  | 99 => ⟨S14400x1x2, .f32⟩
  | 100 => ⟨S960x2, .f32⟩
  | 101 => ⟨S1x960x2, .f32⟩
  | 102 => ⟨S14400x960x2, .f32⟩
  | 103 => ⟨S14400x960x2, .f32⟩
  | 104 => ⟨S14400x960x2, .f32⟩
  | 105 => ⟨S14400x960x2, .f32⟩
  | 106 => ⟨S_, .f32⟩
  | 107 => ⟨S_, .f32⟩
  | 108 => ⟨S14400x960x2, .f32⟩
  | 109 => ⟨S14400x960x2, .f32⟩
  | 110 => ⟨S14400x960x1, .f32⟩
  | 111 => ⟨S14400x960, .f32⟩
  | 112 => ⟨S14400x960x1, .f32⟩
  | 113 => ⟨S14400x960, .f32⟩
  | 114 => ⟨S14400x960, .f32⟩
  | 115 => ⟨S14400x1, .f32⟩
  | 116 => ⟨S1x960, .f32⟩
  | 117 => ⟨S14400x960, .f32⟩
  | 118 => ⟨S14400x960, .f32⟩
  | 119 => ⟨S14400x960, .f32⟩
  | 120 => ⟨S14400x960, .f32⟩
  | 121 => ⟨S14400x960, .f32⟩
  | 122 => ⟨S14400x2, .f32⟩
  | 123 => ⟨S14400x1x2, .f32⟩
  | 124 => ⟨S960x2, .f32⟩
  | 125 => ⟨S1x960x2, .f32⟩
  | 126 => ⟨S14400x960x2, .f32⟩
  | 127 => ⟨S14400x960x2, .f32⟩
  | _ => ⟨S16x900x92, .f32⟩

abbrev hbmTy0_1 (i : Nat) : BufTy := match i % 128 with
  | 0 => ⟨S14400x960x2, .f32⟩
  | 1 => ⟨S14400x2, .f32⟩
  | 2 => ⟨S14400x1x2, .f32⟩
  | 3 => ⟨S960x2, .f32⟩
  | 4 => ⟨S1x960x2, .f32⟩
  | 5 => ⟨S14400x960x2, .f32⟩
  | 6 => ⟨S14400x960x2, .f32⟩
  | 7 => ⟨S14400x960x2, .f32⟩
  | 8 => ⟨S14400x960x2, .f32⟩
  | 9 => ⟨S_, .f32⟩
  | 10 => ⟨S_, .f32⟩
  | 11 => ⟨S14400x960x2, .f32⟩
  | 12 => ⟨S14400x960x2, .f32⟩
  | 13 => ⟨S14400x960x1, .f32⟩
  | 14 => ⟨S14400x960, .f32⟩
  | 15 => ⟨S14400x960x1, .f32⟩
  | 16 => ⟨S14400x960, .f32⟩
  | 17 => ⟨S14400x960, .f32⟩
  | 18 => ⟨S14400x960, .f32⟩
  | 19 => ⟨S14400x960, .f32⟩
  | 20 => ⟨S14400x960, .f32⟩
  | 21 => ⟨S_, .f32⟩
  | 22 => ⟨S14400x960, .f32⟩
  | 23 => ⟨S14400x960, .f32⟩
  | 24 => ⟨S_, .f32⟩
  | 25 => ⟨S14400x960, .f32⟩
  | 26 => ⟨S14400x960, .f32⟩
  | 27 => ⟨S_, .f32⟩
  | 28 => ⟨S14400x960, .f32⟩
  | 29 => ⟨S14400x960, .f32⟩
  | 30 => ⟨S14400x960, .f32⟩
  | 31 => ⟨S_, .f32⟩
  | 32 => ⟨S14400x960, .f32⟩
  | 33 => ⟨S14400x960, .f32⟩
  | 34 => ⟨S14400x960, .f32⟩
  | 35 => ⟨S16x900x960, .f32⟩
  | _ => ⟨S16x900x92, .f32⟩

abbrev hbmTy (i : Nat) : BufTy := match i / 128 with
  | 0 => hbmTy0_0 i
  | 1 => hbmTy0_1 i
  | _ => ⟨S16x900x92, .f32⟩

abbrev bufTy : (tb : Table) → Fin (tcTables nBuf tb) → BufTy
  | .hbm, ⟨i, _⟩ => hbmTy i
  | _, _ => ⟨S16x900x92, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_cst_9 : Ref sig .tc := ⟨.hbm, 106, rfl⟩
abbrev main_call0_v0 : Ref sig .tc := ⟨.hbm, 107, rfl⟩
abbrev main_call0_v1 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_cst_10 : Ref sig .tc := ⟨.hbm, 137, rfl⟩
abbrev main_call1_v0 : Ref sig .tc := ⟨.hbm, 138, rfl⟩
abbrev main_call1_v1 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_cst_11 : Ref sig .tc := ⟨.hbm, 149, rfl⟩
abbrev main_v128 : Ref sig .tc := ⟨.hbm, 150, rfl⟩
abbrev main_v129 : Ref sig .tc := ⟨.hbm, 151, rfl⟩
abbrev main_cst_12 : Ref sig .tc := ⟨.hbm, 152, rfl⟩
abbrev main_v130 : Ref sig .tc := ⟨.hbm, 153, rfl⟩
abbrev main_v131 : Ref sig .tc := ⟨.hbm, 154, rfl⟩
abbrev main_cst_13 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_cst_14 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩

abbrev nD : Nat := 1
abbrev τ : Topo := Topo.v7x

variable {F : FTy → Type} [FloatOps F]

class Facts₀ : Prop where
  shapeCasts_S16x900x92_S14400x92 : S16x900x92.ShapeCasts S14400x92
  reducesTo_S14400x92_S14400_d1 : S14400x92.ReducesTo [1] S14400
  h_S_ : 0 < S_.numel
  bcast_S_S14400 : S_.BroadcastsInDim S14400 (![] : Fin 0 → Fin S14400.rank)
  bcast_S14400_S14400x1_0 : S14400.BroadcastsInDim S14400x1 (![0] : Fin 1 → Fin S14400x1.rank)
  bcast_S14400x1_S14400x92_0_1 : S14400x1.BroadcastsInDim S14400x92 (![0, 1] : Fin 2 → Fin S14400x92.rank)
  bcast_S_S960 : S_.BroadcastsInDim S960 (![] : Fin 0 → Fin S960.rank)
  bcast_S960_S960x1_0 : S960.BroadcastsInDim S960x1 (![0] : Fin 1 → Fin S960x1.rank)
  bcast_S_S14400x960 : S_.BroadcastsInDim S14400x960 (![] : Fin 0 → Fin S14400x960.rank)
  shapeCasts_S16x900x4_S14400x4 : S16x900x4.ShapeCasts S14400x4
  bcast_S14400x4_S14400x1x4_0_2 : S14400x4.BroadcastsInDim S14400x1x4 (![0, 2] : Fin 2 → Fin S14400x1x4.rank)
  bcast_S960x4_S1x960x4_1_2 : S960x4.BroadcastsInDim S1x960x4 (![1, 2] : Fin 2 → Fin S1x960x4.rank)
  bcast_S14400x1x4_S14400x960x4_0_1_2 : S14400x1x4.BroadcastsInDim S14400x960x4 (![0, 1, 2] : Fin 3 → Fin S14400x960x4.rank)
  bcast_S1x960x4_S14400x960x4_0_1_2 : S1x960x4.BroadcastsInDim S14400x960x4 (![0, 1, 2] : Fin 3 → Fin S14400x960x4.rank)
  reducesTo_S14400x960x4_S14400x960_d2 : S14400x960x4.ReducesTo [2] S14400x960
  slices_S14400x4_S14400x1_0_0 : S14400x4.Slices ![0, 0] S14400x1
  shapeCasts_S14400x1_S14400 : S14400x1.ShapeCasts S14400
  slices_S14400x4_S14400x1_0_1 : S14400x4.Slices ![0, 1] S14400x1
  slices_S14400x4_S14400x1_0_2 : S14400x4.Slices ![0, 2] S14400x1
  slices_S14400x4_S14400x1_0_3 : S14400x4.Slices ![0, 3] S14400x1
  concatenates_S14400x1_S14400x1_S14400x1_S14400x1_S14400x4_d1 : Shape.Concatenates [S14400x1, S14400x1, S14400x1, S14400x1] S14400x4 1
  slices_S960x4_S960x1_0_2 : S960x4.Slices ![0, 2] S960x1
  shapeCasts_S960x1_S960 : S960x1.ShapeCasts S960
  slices_S960x4_S960x1_0_0 : S960x4.Slices ![0, 0] S960x1
  slices_S960x4_S960x1_0_3 : S960x4.Slices ![0, 3] S960x1
  slices_S960x4_S960x1_0_1 : S960x4.Slices ![0, 1] S960x1
  slices_S14400x4_S14400x2_0_0 : S14400x4.Slices ![0, 0] S14400x2
  bcast_S14400x2_S14400x1x2_0_2 : S14400x2.BroadcastsInDim S14400x1x2 (![0, 2] : Fin 2 → Fin S14400x1x2.rank)
  slices_S960x4_S960x2_0_0 : S960x4.Slices ![0, 0] S960x2
  bcast_S960x2_S1x960x2_1_2 : S960x2.BroadcastsInDim S1x960x2 (![1, 2] : Fin 2 → Fin S1x960x2.rank)
  bcast_S14400x1x2_S14400x960x2_0_1_2 : S14400x1x2.BroadcastsInDim S14400x960x2 (![0, 1, 2] : Fin 3 → Fin S14400x960x2.rank)
  bcast_S1x960x2_S14400x960x2_0_1_2 : S1x960x2.BroadcastsInDim S14400x960x2 (![0, 1, 2] : Fin 3 → Fin S14400x960x2.rank)
  slices_S14400x4_S14400x2_0_2 : S14400x4.Slices ![0, 2] S14400x2
  slices_S960x4_S960x2_0_2 : S960x4.Slices ![0, 2] S960x2
  bcast_S_S14400x960x2 : S_.BroadcastsInDim S14400x960x2 (![] : Fin 0 → Fin S14400x960x2.rank)
  slices_S14400x960x2_S14400x960x1_0_0_0 : S14400x960x2.Slices ![0, 0, 0] S14400x960x1
  shapeCasts_S14400x960x1_S14400x960 : S14400x960x1.ShapeCasts S14400x960
  slices_S14400x960x2_S14400x960x1_0_0_1 : S14400x960x2.Slices ![0, 0, 1] S14400x960x1
  bcast_S960_S1x960_1 : S960.BroadcastsInDim S1x960 (![1] : Fin 1 → Fin S1x960.rank)
  bcast_S14400x1_S14400x960_0_1 : S14400x1.BroadcastsInDim S14400x960 (![0, 1] : Fin 2 → Fin S14400x960.rank)
  bcast_S1x960_S14400x960_0_1 : S1x960.BroadcastsInDim S14400x960 (![0, 1] : Fin 2 → Fin S14400x960.rank)
  shapeCasts_S14400x960_S16x900x960 : S14400x960.ShapeCasts S16x900x960
  gather_S14400x92_S960x1_S14400x960_0_1_n_n_1_1_144001_wf : GatherDims.WF S14400x92 S960x1 S14400x960 [0] [1] [] [1] [] 1 ![14400, 1]

variable [Facts₀]

def gather_S14400x92_S960x1_S14400x960_0_1_n_n_1_1_144001 : GatherDims S14400x92 S960x1 S14400x960 where
  offsetDims := [0]
  collapsedSliceDims := [1]
  operandBatchingDims := []
  startIndicesBatchingDims := []
  startIndexMap := [1]
  indexVectorDim := 1
  sliceSizes := ![14400, 1]
  wf := gather_S14400x92_S960x1_S14400x960_0_1_n_n_1_1_144001_wf

class Facts : Prop extends Facts₀ where

variable [Facts]
-- ==== Proof.BFrameBody.lean ====
/-
  The word-level kernel body as a triple. On whole staging memrefs — the four inputs' at contents x0 … x3, the output's at
  anything — the body (four whole loads, arithmetic, a dead load of the output buffer, one whole store) runs to its
  continuation leaving the inputs' buffers as they were and the output's holding `stored x0 x1 x2 x3`.
-/
import proofs.«410581_j76922864271401_1_alg».proof.Proof.Gen.Kernel.Skeleton
import proofs.«410581_j76922864271401_1_alg».proof.Proof.Gen.Kernel.Launch
import proofs.«410581_j76922864271401_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.BFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The value of the one store, from the four loaded blocks: the logits block, the predicted-box block, the target
    boxes and the one-hot class table. -/
def stored (v0 : Vec F S1x128x92 .f32) (v2 : Vec F S1x128x4 .f32) (v4 : Vec F S960x4 .f32) (v5 : Vec F S92x960 .f32) :
    FVec F S1x128x960 .f32 :=
  k0_pay1 (k0_pay3 v0 v5) (k0_pay8 v4) (k0_pay9 v4) (k0_pay10 v4) (k0_pay11 v4)
    (k0_pay15 (k0_pay6 v2) (k0_pay7 v2) (k0_pay10 v4) (k0_pay11 v4) (k0_pay12 v2 v4) (k0_pay13 v2) (k0_pay14 v4))
    (k0_pay16 (k0_pay4 v2) (k0_pay6 v2)) (k0_pay17 (k0_pay5 v2) (k0_pay7 v2))
    (k0_pay18 (k0_pay4 v2) (k0_pay6 v2)) (k0_pay19 (k0_pay5 v2) (k0_pay7 v2))
    (k0_pay20 (k0_pay4 v2) (k0_pay5 v2) (k0_pay6 v2) (k0_pay7 v2) (k0_pay8 v4) (k0_pay9 v4) (k0_pay10 v4) (k0_pay11 v4))
    (k0_pay21 (k0_pay4 v2) (k0_pay5 v2) (k0_pay6 v2) (k0_pay7 v2) (k0_pay8 v4) (k0_pay9 v4) (k0_pay10 v4) (k0_pay11 v4))

/-- The whole-buffer rectangles the body's five accesses go through. -/
abbrev rL : Rect S1x128x92 := Rect.unit (s := S1x128x92) ![0, 0, 0] S1x128x92.size inb_S1x128x92_S1x128x92_0_0_0
abbrev rB : Rect S1x128x4 := Rect.unit (s := S1x128x4) ![0, 0, 0] S1x128x4.size inb_S1x128x4_S1x128x4_0_0_0
abbrev rT : Rect S960x4 := Rect.unit (s := S960x4) ![0, 0] S960x4.size inb_S960x4_S960x4_0_0
abbrev rH : Rect S92x960 := Rect.unit (s := S92x960) ![0, 0] S92x960.size inb_S92x960_S92x960_0_0
abbrev rO : Rect S1x128x960 := Rect.unit (s := S1x128x960) ![0, 0, 0] S1x128x960.size inb_S1x128x960_S1x128x960_0_0_0

/-- The output buffer after the body: its one store, over the whole buffer, of the stored value of the loaded blocks. -/
def outBlk (x0 : Vec F S1x128x92 .f32) (x1 : Vec F S1x128x4 .f32) (x2 : Vec F S960x4 .f32) (x3 : Vec F S92x960 .f32) :
    Vec F S1x128x960 .f32 :=
  View.canon [⟨rO, stored (View.ld x0 rL) (View.ld x1 rB) (View.ld x2 rT) (View.ld x3 rH)⟩]

/-- The one store covers the buffer. -/
theorem coverO (p0 : Vec F S1x128x960 .f32) (y : S1x128x960.Idx) :
    ∃ pc ∈ ([⟨rO, p0⟩] : List (View.Piece (Elt F) S1x128x960 .f32)), y ∈ pc.1.set :=
  View.cover_of_tiled [⟨rO, p0⟩] S1x128x960.size (by rfl) y

set_option maxHeartbeats 4000000 in
/-- The body's triple, over any whole staging memrefs. -/
theorem sound_kernel (c : Dev nD) (E : Set ℕ) (i : grid0.Coords)
    (arg2 : Memref sig .tc .vmem S1x128x92 .f32) (harg2 : arg2.IsWhole) (arg3 : Memref sig .tc .vmem S1x128x4 .f32) (harg3 : arg3.IsWhole)
    (arg4 : Memref sig .tc .vmem S960x4 .f32) (harg4 : arg4.IsWhole) (arg5 : Memref sig .tc .vmem S92x960 .f32) (harg5 : arg5.IsWhole)
    (arg6 : Memref sig .tc .vmem S1x128x960 .f32) (harg6 : arg6.IsWhole)
    (x0 : Vec F S1x128x92 .f32) (x1 : Vec F S1x128x4 .f32) (x2 : Vec F S960x4 .f32) (x3 : Vec F S92x960 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlk x0 x1 x2 x3)) -∗ K ⟨⟩))
      ⊢ wp frame (wpE (defs₀ (F := F)) Variants.none c none) E (cc0__cost_kernel i arg2 harg2 arg3 harg3 arg4 harg4 arg5 harg5 arg6 harg6) K := by
  simp only [cc0__cost_kernel_eq_skeleton]; unfold cc0__cost_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverO _)

end Cert.Kernel.BFrame

end
-- ==== Proof.BFrameData.lean ====
/-
  The proof data of the word-level program's one pipeline, and its body obligation with the OUTPUT window forgotten.
  Windows 0 (logits) and 1 (predicted boxes) are cut at the array's end: the body finds each block on the rows inside the
  array and words nothing names past them, and leaves them so. Windows 2 (target boxes) and 3 (the one-hot class table)
  are whole arrays fetched once and kept. Window 4 (the output) is forgotten: it is handed to the body at any contents
  and taken back at any contents, and nothing is said of what the body stores there.
-/
import proofs.«410581_j76922864271401_1_alg».proof.Proof.BFrameBody
import proofs.«410581_j76922864271401_1_alg».proof.Proof.Gen.Kernel.Frame

set_option maxRecDepth 16384

noncomputable section

namespace Cert.Kernel.BFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The proof data -/

/-- The window this certificate forgets: the output, window 4. -/
def forgets0 : Fin 5 → Bool := fun w => w.val == 4

/-- The logits block at point `t` filled out to the staging buffer's shape: on the rows inside the array the block,
    past them the zero word (the body obligation states nothing there). -/
def blk0 (c : Dev nD) (t : Fin cfg0.N) : S1x128x92.Idx → Elt F .f32 :=
  win0_0.fill (grid0.coords t) (fun _ => Scalar.ofBits .f32 0#32) (iblk m c 0 t)
/-- The predicted-box block likewise. -/
def blk1 (c : Dev nD) (t : Fin cfg0.N) : S1x128x4.Idx → Elt F .f32 :=
  win0_1.fill (grid0.coords t) (fun _ => Scalar.ofBits .f32 0#32) (iblk m c 1 t)

/-- The proof data of the one pipeline on core `c`: the arrays as the region finds them; after the body at point `t`
    each input's buffer at its block (the two cut ones filled out) and the output's, forgotten, at contents nothing
    names; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => blk1 m c t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = blk0 m c t := by dsimp only [dats]
theorem after0_1 (c : Dev nD) (t : Fin cfg0.N) : (dats m 0 c).after 1 t = blk1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- The two cut windows are fetched at every point: the body finds the block on the rows inside the array and `d`
    past them. -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) :
    (dats m 0 c).before 1 t d = win0_1.fill (grid0.coords t) d (iblk m c 1 t) := by
  unfold Dat.before; rw [if_pos (fetch0_1 t)]; rfl
/-- The two whole windows hold their block at every point, fetched there or not. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- A filled-out block cut back to the rows inside the array is the block. -/
theorem cut_blk0 (c : Dev nD) (t : Fin cfg0.N) :
    (cfg0.win 0).cut (cfg0.grid.coords t) (blk0 m c t) = iblk m c 0 t := win0_0.cut_fill _ _ _
theorem cut_blk1 (c : Dev nD) (t : Fin cfg0.N) :
    (cfg0.win 1).cut (cfg0.grid.coords t) (blk1 m c t) = iblk m c 1 t := win0_1.cut_fill _ _ _

/-! ## The body obligation, at a generic point -/

/-- What the body is called with at point `t`: the output's buffer at any contents. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- and what it returns: the cut windows' buffers stated on the rows inside the array, the output's at any contents. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

/-- The body at any point: the inputs' memrefs hold their blocks, the cut ones filled out with whatever the fetch
    left past the array's end, so the body's triple applies; it leaves them as they were, which on the rows inside the
    array is what the proof data state; the invariant and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, cut_blk0, cut_blk1]
  iintro ⟨HΦ, Ho, ⟨%d0, H0⟩, ⟨%d1, H1⟩, ⟨%d2, H2⟩, ⟨%d3, H3⟩, ⟨%X4, H4⟩⟩
  iapply (sound_kernel c Set.univ (grid0.coords t) _ _ _ _ _ _ _ _ _ _
    (win0_0.fill (grid0.coords t) d0 (iblk m c 0 t)) (win0_1.fill (grid0.coords t) d1 (iblk m c 1 t))
    (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexists d0; iexact H0
  isplitl [H1]; · iexists d1; iexact H1
  isplitl [H2]; · iexact H2
  isplitl [H3]; · iexact H3
  iexists _; iexact H4

/-- The library's body obligation in its loose form, the output window forgotten, at every point. -/
theorem body_obligation (c : Dev nD) :
    BodyObligationLoose (dats (F := F) m 0 c) (defs₀ (F := F)) Variants.none () Set.univ forgets0 := fun t => by
  rw [bigSep_W0, bigSep_W0]
  exact sound_body m c t

end Cert.Kernel.BFrame

end
-- ==== Proof.BFrame.lean ====
/-
  The frame of the word-level program: at the compiled mesh, for any float values, from any memory with zero counters,
  every weakly fair execution of @main terminates with the four argument arrays holding what they held. The run is the
  library's frame run over the proof data with the output window forgotten; its post is read at the argument arrays — a
  staged input by the post's first clause, the array no window stages by its second.
-/
import proofs.«410581_j76922864271401_1_alg».proof.Proof.BFrameData

set_option maxRecDepth 16384

noncomputable section

namespace Cert.Kernel.BFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

-- the run theorem's implicit arguments are found by unifying its conclusion with this one, which takes unfolding plain
-- definitions in a metavariable's type
set_option backward.isDefEq.respectTransparency.types false in
/-- Every weakly fair execution of @main on the TensorCores terminates, and every final state has every input array of
    the pipeline unchanged, nothing stated of the forgotten output, and every other unscoped buffer at its region-entry
    contents. -/
theorem run_main : θ_run defs (onTc (τ := τ) (main (F := F))) (s₀ m ρ)
    (Pipeline.RDat.FramePost (cfgs 0) (fun c => (dats m 0 c).toRForget forgets0) (V m)) :=
  Pipeline.RDat.θ_run_frame cfgs (0 : Fin 1) launch0 defs₀ Variants.none (fun c => (dats m 0 c).toRForget forgets0) m ρ main
    (hbody := fun c => (body_obligation m c).toRForget)
    (hshare := fun c => ((dats m 0 c).toRForget forgets0).share_full fun _ => rfl)
    (howed := fun _ _ => rfl) (V := V m) (hmain := hmain m Variants.none) (hA := A_eq m) (hΦ := fun _ _ => rfl)

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r (h : Pipeline.RDat.FramePost (cfgs 0) (fun c => (dats m 0 c).toRForget forgets0) (V m) r) c =>
    ⟨(Pipeline.RDat.FramePost.arr_in h c 0 rfl).trans ((A_eq m c 0).trans (V_main_arg0 m c)),
      (Pipeline.RDat.FramePost.arr_in h c 1 rfl).trans ((A_eq m c 1).trans (V_main_arg1 m c)),
      ((h c).2 main_arg2 (Pipeline.mem_restRefs_of main_arg2 (by decide) (by decide))).trans (V_main_arg2 m c),
      (Pipeline.RDat.FramePost.arr_in h c 2 rfl).trans ((A_eq m c 2).trans (V_main_arg3 m c))⟩) (run_main m ρ)

end Cert.Kernel.BFrame

end
-- ==== Proof.KStored.lean ====
/-
  What the kernel body stores into its output block, as ONE function of the four blocks it loads: the logits block,
  the predicted-box block, the target boxes and the one-hot class table. The body is loads, pure arithmetic and one
  whole store; this names the stored value (generic in the float instance).
-/
import proofs.«410581_j76922864271401_1_alg».proof.Proof.Gen.KernelIdeal.Skeleton

noncomputable section

namespace Cert.KernelIdeal.Body

open Cert.KernelIdeal Cert.KernelIdeal.Gen Idealize.ShloMosaic

variable {F : FTy → Type} [FloatOps F]

/-- The value of the one store, from the four loaded blocks. -/
def stored (v0 : Vec F S1x128x92 .f32) (v2 : Vec F S1x128x4 .f32) (v4 : Vec F S960x4 .f32) (v5 : Vec F S92x960 .f32) :
    FVec F S1x128x960 .f32 :=
  k0_pay1 (k0_pay3 v0 v5) (k0_pay8 v4) (k0_pay9 v4) (k0_pay10 v4) (k0_pay11 v4)
    (k0_pay15 (k0_pay6 v2) (k0_pay7 v2) (k0_pay10 v4) (k0_pay11 v4) (k0_pay12 v2 v4) (k0_pay13 v2) (k0_pay14 v4))
    (k0_pay16 (k0_pay4 v2) (k0_pay6 v2)) (k0_pay17 (k0_pay5 v2) (k0_pay7 v2))
    (k0_pay18 (k0_pay4 v2) (k0_pay6 v2)) (k0_pay19 (k0_pay5 v2) (k0_pay7 v2))
    (k0_pay20 (k0_pay4 v2) (k0_pay5 v2) (k0_pay6 v2) (k0_pay7 v2) (k0_pay8 v4) (k0_pay9 v4) (k0_pay10 v4) (k0_pay11 v4))
    (k0_pay21 (k0_pay4 v2) (k0_pay5 v2) (k0_pay6 v2) (k0_pay7 v2) (k0_pay8 v4) (k0_pay9 v4) (k0_pay10 v4) (k0_pay11 v4))

end Cert.KernelIdeal.Body

end
-- ==== Proof.KBody.lean ====
/-
  The kernel body as a triple. On whole staging memrefs — the four inputs' at contents x0 … x3, the output's at anything —
  the body (four whole loads, arithmetic, a dead load of the output buffer, one whole store) runs to its continuation
  leaving the inputs' buffers as they were and the output's holding `stored x0 x1 x2 x3`.
-/
import proofs.«410581_j76922864271401_1_alg».proof.Proof.KStored
import proofs.«410581_j76922864271401_1_alg».proof.Proof.Gen.KernelIdeal.Launch
import proofs.«410581_j76922864271401_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body's five accesses go through. -/
abbrev rL : Rect S1x128x92 := Rect.unit (s := S1x128x92) ![0, 0, 0] S1x128x92.size inb_S1x128x92_S1x128x92_0_0_0
abbrev rB : Rect S1x128x4 := Rect.unit (s := S1x128x4) ![0, 0, 0] S1x128x4.size inb_S1x128x4_S1x128x4_0_0_0
abbrev rT : Rect S960x4 := Rect.unit (s := S960x4) ![0, 0] S960x4.size inb_S960x4_S960x4_0_0
abbrev rH : Rect S92x960 := Rect.unit (s := S92x960) ![0, 0] S92x960.size inb_S92x960_S92x960_0_0
abbrev rO : Rect S1x128x960 := Rect.unit (s := S1x128x960) ![0, 0, 0] S1x128x960.size inb_S1x128x960_S1x128x960_0_0_0

/-- The output buffer after the body: its one store, over the whole buffer, of the stored value of the loaded blocks. -/
def outBlk (x0 : Vec F S1x128x92 .f32) (x1 : Vec F S1x128x4 .f32) (x2 : Vec F S960x4 .f32) (x3 : Vec F S92x960 .f32) :
    Vec F S1x128x960 .f32 :=
  View.canon [⟨rO, stored (View.ld x0 rL) (View.ld x1 rB) (View.ld x2 rT) (View.ld x3 rH)⟩]

/-- The one store covers the buffer. -/
theorem coverO (p0 : Vec F S1x128x960 .f32) (y : S1x128x960.Idx) :
    ∃ pc ∈ ([⟨rO, p0⟩] : List (View.Piece (Elt F) S1x128x960 .f32)), y ∈ pc.1.set :=
  View.cover_of_tiled [⟨rO, p0⟩] S1x128x960.size (by rfl) y

set_option maxHeartbeats 4000000 in
/-- The body's triple, over any whole staging memrefs. -/
theorem sound_kernel (c : Dev nD) (E : Set ℕ) (i : grid0.Coords)
    (arg2 : Memref sig .tc .vmem S1x128x92 .f32) (harg2 : arg2.IsWhole) (arg3 : Memref sig .tc .vmem S1x128x4 .f32) (harg3 : arg3.IsWhole)
    (arg4 : Memref sig .tc .vmem S960x4 .f32) (harg4 : arg4.IsWhole) (arg5 : Memref sig .tc .vmem S92x960 .f32) (harg5 : arg5.IsWhole)
    (arg6 : Memref sig .tc .vmem S1x128x960 .f32) (harg6 : arg6.IsWhole)
    (x0 : Vec F S1x128x92 .f32) (x1 : Vec F S1x128x4 .f32) (x2 : Vec F S960x4 .f32) (x3 : Vec F S92x960 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlk x0 x1 x2 x3)) -∗ K ⟨⟩))
      ⊢ wp frame (wpE (defs₀ (F := F)) Variants.none c none) E (cc0__cost_kernel i arg2 harg2 arg3 harg3 arg4 harg4 arg5 harg5 arg6 harg6) K := by
  simp only [cc0__cost_kernel_eq_skeleton]; unfold cc0__cost_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverO _)

end Cert.KernelIdeal.Body

end
-- ==== Proof.CostSpec.lean ====
/-
  The matching cost of one (prediction, target) pair, as a function on the extended reals.

  For a row of class logits `x`, a predicted box `b = (cx, cy, w, h)`, a target box `tb = (tx0, ty0, tx1, ty1)`
  (used as it is given, as the source does) and the probability `p` the softmax of `x` gives the target's class:

    cost = 1 · (1 − p) + 5 · L1(b, tb) + 2 · (1 − GIoU(xyxy b, tb))

  with L1 the sum of the four absolute coordinate differences, xyxy b = (cx − w/2, cy − h/2, cx + w/2, cy + h/2),
  and GIoU = IoU − (hull − union) / hull. Every float literal is kept as the word the programs print; nothing here
  evaluates one. The operations are the extended reals' own (`Ideal.div`, `Ideal.exp`, `max`, `min`).
-/
import Idealize.ShloMosaic.PureOps.Ideal
import Idealize.ShloMosaic.PureOps.Ideal.Laws

noncomputable section

namespace Cert.CostSpec

open Idealize.ShloMosaic

/-- The literals, as printed words read at the extended reals. -/
abbrev negInf : EReal := Ideal.ofBits .f32 0xFF800000#32
abbrev zero : EReal := Ideal.ofBits .f32 0x00000000#32
abbrev one : EReal := Ideal.ofBits .f32 0x3F800000#32
abbrev half : EReal := Ideal.ofBits .f32 0x3F000000#32
abbrev two : EReal := Ideal.ofBits .f32 0x40000000#32
abbrev five : EReal := Ideal.ofBits .f32 0x40A00000#32

/-- The absolute value on the extended reals. -/
def abs' (a : EReal) : EReal := max a (-a)

/-- A row's maximum, taken from −∞ (and once more against −∞, as both programs do). -/
def rowMax (x : Fin 92 → EReal) : EReal := max negInf (Finset.univ.fold max negInf x)

/-- The shifted exponential of entry `c` of a row. -/
def expo (x : Fin 92 → EReal) (c : Fin 92) : EReal := Ideal.exp (x c - rowMax x)

/-- The softmax of a row at entry `c`. -/
def prob (x : Fin 92 → EReal) (c : Fin 92) : EReal := Ideal.div (expo x c) (∑ k : Fin 92, expo x k)

/-- The sum of the four absolute coordinate differences. -/
def l1 (cx cy w h tx0 ty0 tx1 ty1 : EReal) : EReal :=
  abs' (cx - tx0) + abs' (cy - ty0) + abs' (w - tx1) + abs' (h - ty1)

/-- The generalized IoU of the predicted box (converted to corners) and the target box (as given). -/
def giou (cx cy w h tx0 ty0 tx1 ty1 : EReal) : EReal :=
  let x0 := cx - half * w
  let y0 := cy - half * h
  let x1 := cx + half * w
  let y1 := cy + half * h
  let area1 := (x1 - x0) * (y1 - y0)
  let area2 := (tx1 - tx0) * (ty1 - ty0)
  let inter := max (min x1 tx1 - max x0 tx0) zero * max (min y1 ty1 - max y0 ty0) zero
  let union := area1 + area2 - inter
  let hull := max (max x1 tx1 - min x0 tx0) zero * max (max y1 ty1 - min y0 ty0) zero
  Ideal.div inter union - Ideal.div (hull - union) hull

/-- The cost of a pair, given the probability `p` of the target's class. -/
def cost (p cx cy w h tx0 ty0 tx1 ty1 : EReal) : EReal :=
  one * (one - p) + five * l1 cx cy w h tx0 ty0 tx1 ty1 + two * (one - giou cx cy w h tx0 ty0 tx1 ty1)

end Cert.CostSpec

end
-- ==== Proof.KernelCell.lean ====
/-
  The stored block read at one entry: row `r` of the block and target `t`.

  The layout operations are read at an index first (columns, rows, slices), then the softmax block and its product with
  the class table, then the pointwise arithmetic; the last theorem puts them together.
-/
import proofs.«410581_j76922864271401_1_alg».proof.Proof.CostSpec
import proofs.«410581_j76922864271401_1_alg».proof.Proof.KStored
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Cell

open Cert.KernelIdeal Cert.KernelIdeal.Gen Cert.KernelIdeal.Body Idealize.ShloMosaic Idealize.ShloMosaic.ValueIdx

/-! ## Columns and rows read at an index -/

section Layout
variable {α : Type}

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-! ## The box coordinates -/

/-- The predicted-box block without its leading unit axis. -/
theorem pay2_apply (v2 : Vec Ideal S1x128x4 .f32) (r : Fin 128) (k : Fin 4) :
    k0_pay2 (F := Ideal) v2 (ix2 r k) = v2 (ix3 (0 : Fin 1) r k) := by
  unfold k0_pay2
  exact shapeCast_1ab_ab_apply _ _ r k

/-- Column `k` of the predicted boxes, at row `r`. -/
theorem pay4_apply (v2 : Vec Ideal S1x128x4 .f32) (r : Fin 128) :
    k0_pay4 (F := Ideal) v2 (ix2 r (0 : Fin 1)) = v2 (ix3 (0 : Fin 1) r (0 : Fin 4)) := by
  unfold k0_pay4
  exact (slice2_axis1_apply 0 _ _ r (0 : Fin 1) (0 : Fin 4) rfl).trans (pay2_apply v2 r 0)
theorem pay5_apply (v2 : Vec Ideal S1x128x4 .f32) (r : Fin 128) :
    k0_pay5 (F := Ideal) v2 (ix2 r (0 : Fin 1)) = v2 (ix3 (0 : Fin 1) r (1 : Fin 4)) := by
  unfold k0_pay5
  exact (slice2_axis1_apply 1 _ _ r (0 : Fin 1) (1 : Fin 4) rfl).trans (pay2_apply v2 r 1)
theorem pay6_apply (v2 : Vec Ideal S1x128x4 .f32) (r : Fin 128) :
    k0_pay6 (F := Ideal) v2 (ix2 r (0 : Fin 1)) = v2 (ix3 (0 : Fin 1) r (2 : Fin 4)) := by
  unfold k0_pay6
  exact (slice2_axis1_apply 2 _ _ r (0 : Fin 1) (2 : Fin 4) rfl).trans (pay2_apply v2 r 2)
theorem pay7_apply (v2 : Vec Ideal S1x128x4 .f32) (r : Fin 128) :
    k0_pay7 (F := Ideal) v2 (ix2 r (0 : Fin 1)) = v2 (ix3 (0 : Fin 1) r (3 : Fin 4)) := by
  unfold k0_pay7
  exact (slice2_axis1_apply 3 _ _ r (0 : Fin 1) (3 : Fin 4) rfl).trans (pay2_apply v2 r 3)

/-- Column `k` of the target boxes as a row, at target `t`. -/
theorem pay8_apply (v4 : Vec Ideal S960x4 .f32) (t : Fin 960) :
    k0_pay8 (F := Ideal) v4 (ix2 (0 : Fin 1) t) = v4 (ix2 t (0 : Fin 4)) := by
  unfold k0_pay8
  exact (shapeCast_a_1a_apply _ _ (0 : Fin 1) t).trans
    ((shapeCast_a1_a_apply _ _ t).trans (slice2_axis1_apply 0 _ _ t (0 : Fin 1) (0 : Fin 4) rfl))
theorem pay9_apply (v4 : Vec Ideal S960x4 .f32) (t : Fin 960) :
    k0_pay9 (F := Ideal) v4 (ix2 (0 : Fin 1) t) = v4 (ix2 t (1 : Fin 4)) := by
  unfold k0_pay9
  exact (shapeCast_a_1a_apply _ _ (0 : Fin 1) t).trans
    ((shapeCast_a1_a_apply _ _ t).trans (slice2_axis1_apply 1 _ _ t (0 : Fin 1) (1 : Fin 4) rfl))
theorem pay10_apply (v4 : Vec Ideal S960x4 .f32) (t : Fin 960) :
    k0_pay10 (F := Ideal) v4 (ix2 (0 : Fin 1) t) = v4 (ix2 t (2 : Fin 4)) := by
  unfold k0_pay10
  exact (shapeCast_a_1a_apply _ _ (0 : Fin 1) t).trans
    ((shapeCast_a1_a_apply _ _ t).trans (slice2_axis1_apply 2 _ _ t (0 : Fin 1) (2 : Fin 4) rfl))
theorem pay11_apply (v4 : Vec Ideal S960x4 .f32) (t : Fin 960) :
    k0_pay11 (F := Ideal) v4 (ix2 (0 : Fin 1) t) = v4 (ix2 t (3 : Fin 4)) := by
  unfold k0_pay11
  exact (shapeCast_a_1a_apply _ _ (0 : Fin 1) t).trans
    ((shapeCast_a1_a_apply _ _ t).trans (slice2_axis1_apply 3 _ _ t (0 : Fin 1) (3 : Fin 4) rfl))

/-! ## The softmax block and its product with the class table -/

section Softmax

/-- On a row index of the logits matrix, coordinate `k` inserted on the class axis gives entry `(r, k)`. -/
theorem lift_row (h : S128x92.Reduces [1] S128) (r : Fin 128) (k : Fin 92) : h.lift (ix1 r) k = ix2 r k := by
  funext c
  apply Fin.ext
  match c with
  | ⟨0, _⟩ => rfl
  | ⟨1, _⟩ => rfl

variable (v0 : Vec Ideal S1x128x92 .f32)

/-- The logits block as a matrix of 128 rows and 92 classes. -/
def logits : FVec Ideal S128x92 .f32 := shapeCast S128x92 v0 shapeCasts_S1x128x92_S128x92

theorem logits_apply (r : Fin 128) (c : Fin 92) : logits v0 (ix2 r c) = v0 (ix3 (0 : Fin 1) r c) :=
  shapeCast_1ab_ab_apply _ _ r c

/-- A vector of one value per row, copied along the 92 classes. -/
def alongClasses (m : FVec Ideal S128 .f32) : FVec Ideal S128x92 .f32 :=
  broadcastTo S128x92 (shapeCast S128x1 m shapeCasts_S128_S128x1) broadcasts_S128x1_S128x92

theorem alongClasses_apply (m : FVec Ideal S128 .f32) (r : Fin 128) (c : Fin 92) : alongClasses m (ix2 r c) = m (ix1 r) :=
  (broadcastTo_a1_ab_apply _ _ r c).trans (shapeCast_a_a1_apply _ _ r (0 : Fin 1))

/-- Each row's maximum, from −∞ and once more against −∞. -/
def rowMaxV : FVec Ideal S128 .f32 :=
  maximumf (broadcast S128 (Scalar.ofBits .f32 0xFF800000#32))
    (multiReduction .maximumf [1] S128 (logits v0) 0xFF800000#32 reduces_S128x92_S128 (.inl rfl) rfl)

theorem rowMaxV_apply (r : Fin 128) :
    rowMaxV v0 (ix1 r) = CostSpec.rowMax (fun c : Fin 92 => v0 (ix3 (0 : Fin 1) r c)) := by
  show max (Ideal.ofBits .f32 0xFF800000#32)
      (multiReduction (F := Ideal) .maximumf [1] S128 (logits v0) 0xFF800000#32 reduces_S128x92_S128 (.inl rfl) rfl (ix1 r))
    = max CostSpec.negInf (Finset.univ.fold max CostSpec.negInf (fun c : Fin 92 => v0 (ix3 (0 : Fin 1) r c)))
  refine congrArg (max _) ?_
  refine (Ideal.multiReduction_maximumf_single (logits v0) _ reduces_S128x92_S128 (.inl rfl) rfl (ix1 r)).trans ?_
  exact congrArg (Finset.univ.fold max _)
    (funext fun k => (congrArg (logits v0) (lift_row _ r k)).trans (logits_apply v0 r k))

/-- The shifted exponentials. -/
def expoV : FVec Ideal S128x92 .f32 := exp (subf (logits v0) (alongClasses (rowMaxV v0)))

theorem expoV_apply (r : Fin 128) (c : Fin 92) :
    expoV v0 (ix2 r c) = CostSpec.expo (fun c' : Fin 92 => v0 (ix3 (0 : Fin 1) r c')) c := by
  show Ideal.exp (logits v0 (ix2 r c) - alongClasses (rowMaxV v0) (ix2 r c)) = _
  rw [logits_apply, alongClasses_apply, rowMaxV_apply]
  rfl

/-- Each row's sum of shifted exponentials. -/
def sumV : FVec Ideal S128 .f32 :=
  multiReduction .add [1] S128 (expoV v0) 0x00000000#32 reduces_S128x92_S128 (.inl rfl) rfl

theorem sumV_apply (r : Fin 128) :
    sumV v0 (ix1 r) = ∑ k : Fin 92, CostSpec.expo (fun c' : Fin 92 => v0 (ix3 (0 : Fin 1) r c')) k := by
  refine (Ideal.multiReduction_add_single (expoV v0) _ reduces_S128x92_S128 (.inl rfl) rfl (ix1 r)).trans ?_
  exact Finset.sum_congr rfl fun k _ => (congrArg (expoV v0) (lift_row _ r k)).trans (expoV_apply v0 r k)

/-- The softmax of every row. -/
def probV : FVec Ideal S128x92 .f32 := divf (expoV v0) (alongClasses (sumV v0))

theorem probV_apply (r : Fin 128) (c : Fin 92) :
    probV v0 (ix2 r c) = CostSpec.prob (fun c' : Fin 92 => v0 (ix3 (0 : Fin 1) r c')) c := by
  show Ideal.div (expoV v0 (ix2 r c)) (alongClasses (sumV v0) (ix2 r c)) = _
  rw [expoV_apply, alongClasses_apply, sumV_apply]
  rfl

end Softmax

/-! ## The product of the softmax block with the class table -/

section Product

/-- Row axis of the left operand: the output's row. -/
theorem lhs_row (j : S128x960.Idx) (k : dot_S128x92_S92x960_S128x960_1_0_0_1_n_n.contr.Idx) :
    (dot_S128x92_S92x960_S128x960_1_0_0_1_n_n.lhsIdx j k 0 : ℕ) = j 0 := by
  simp [DotDims.lhsIdx, dot_S128x92_S92x960_S128x960_1_0_0_1_n_n]; rfl
/-- Class axis of the left operand: the contraction's coordinate. -/
theorem lhs_col (j : S128x960.Idx) (k : dot_S128x92_S92x960_S128x960_1_0_0_1_n_n.contr.Idx) :
    (dot_S128x92_S92x960_S128x960_1_0_0_1_n_n.lhsIdx j k 1 : ℕ) = k ⟨0, by decide⟩ :=
  dot_S128x92_S92x960_S128x960_1_0_0_1_n_n.lhsIdx_val_of_single rfl j k
/-- Class axis of the right operand: the contraction's coordinate. -/
theorem rhs_row (j : S128x960.Idx) (k : dot_S128x92_S92x960_S128x960_1_0_0_1_n_n.contr.Idx) :
    (dot_S128x92_S92x960_S128x960_1_0_0_1_n_n.rhsIdx j k 0 : ℕ) = k ⟨0, by decide⟩ :=
  dot_S128x92_S92x960_S128x960_1_0_0_1_n_n.rhsIdx_val_of_single rfl j k
/-- Target axis of the right operand: the output's column. -/
theorem rhs_col (j : S128x960.Idx) (k : dot_S128x92_S92x960_S128x960_1_0_0_1_n_n.contr.Idx) :
    (dot_S128x92_S92x960_S128x960_1_0_0_1_n_n.rhsIdx j k 1 : ℕ) = j 1 := by
  simp [DotDims.rhsIdx, dot_S128x92_S92x960_S128x960_1_0_0_1_n_n]; rfl

/-- The product into the zero accumulator, at `(r, t)`: the sum over the 92 classes. -/
theorem matmul_zero_apply (A : FVec Ideal S128x92 .f32) (B : FVec Ideal S92x960 .f32) (r : Fin 128) (t : Fin 960) :
    matmul dot_S128x92_S92x960_S128x960_1_0_0_1_n_n (some .fp32) A B (constant (F := Ideal) S128x960 .f32 0x00000000#32) (ix2 r t)
      = ∑ c : Fin 92, A (ix2 r c) * B (ix2 c t) := by
  refine (Ideal.matmul_constant_zero_apply dot_S128x92_S92x960_S128x960_1_0_0_1_n_n (some .fp32) A B (ix2 r t)).trans ?_
  rw [← Equiv.sum_comp (contrEquiv1 dot_S128x92_S92x960_S128x960_1_0_0_1_n_n 92 rfl rfl).symm]
  refine Finset.sum_congr rfl fun c _ => ?_
  have hc := contrEquiv1_symm_val dot_S128x92_S92x960_S128x960_1_0_0_1_n_n 92 rfl rfl c
  refine congrArg₂ (· * ·) (congrArg A ?_) (congrArg B ?_)
  · exact Shape.idx_ext₂ (lhs_row _ _) ((lhs_col _ _).trans hc)
  · exact Shape.idx_ext₂ ((rhs_row _ _).trans hc) (rhs_col _ _)

end Product

/-! ## The pointwise part -/

section Pointwise

/-- The absolute value and the exponential at an index. -/
theorem absf_apply {s : Shape} {φ : FTy} (a : FVec Ideal s φ) (i : s.Idx) : absf a i = CostSpec.abs' (a i) := rfl
theorem exp_apply {s : Shape} {φ : FTy} (a : FVec Ideal s φ) (i : s.Idx) : exp a i = Ideal.exp (a i) := rfl

variable (v21 v22 v23 v24 : FVec Ideal S128x1 .f32) (v27 v30 v33 v36 : FVec Ideal S1x960 .f32)

/-- The corners of the predicted box from its centre and half its size. -/
theorem pay16_apply (r : Fin 128) :
    k0_pay16 v21 v23 (ix2 r (0 : Fin 1)) = v21 (ix2 r (0 : Fin 1)) - CostSpec.half * v23 (ix2 r (0 : Fin 1)) := rfl
theorem pay17_apply (r : Fin 128) :
    k0_pay17 v22 v24 (ix2 r (0 : Fin 1)) = v22 (ix2 r (0 : Fin 1)) - CostSpec.half * v24 (ix2 r (0 : Fin 1)) := rfl
theorem pay18_apply (r : Fin 128) :
    k0_pay18 v21 v23 (ix2 r (0 : Fin 1)) = v21 (ix2 r (0 : Fin 1)) + CostSpec.half * v23 (ix2 r (0 : Fin 1)) := rfl
theorem pay19_apply (r : Fin 128) :
    k0_pay19 v22 v24 (ix2 r (0 : Fin 1)) = v22 (ix2 r (0 : Fin 1)) + CostSpec.half * v24 (ix2 r (0 : Fin 1)) := rfl

/-- The intersection's area. -/
theorem pay20_apply (r : Fin 128) (t : Fin 960) :
    k0_pay20 v21 v22 v23 v24 v27 v30 v33 v36 (ix2 r t)
      = max (min (k0_pay18 v21 v23 (ix2 r (0 : Fin 1))) (v33 (ix2 (0 : Fin 1) t))
              - max (k0_pay16 v21 v23 (ix2 r (0 : Fin 1))) (v27 (ix2 (0 : Fin 1) t))) CostSpec.zero
        * max (min (k0_pay19 v22 v24 (ix2 r (0 : Fin 1))) (v36 (ix2 (0 : Fin 1) t))
              - max (k0_pay17 v22 v24 (ix2 r (0 : Fin 1))) (v30 (ix2 (0 : Fin 1) t))) CostSpec.zero := by
  simp only [k0_pay20, mulf_apply, maximumf_apply, minimumf_apply, subf_apply, broadcast_apply,
    broadcastTo_a1_ab_apply, broadcastTo_1b_ab_apply]
  rfl

/-- The union's area. -/
theorem pay21_apply (r : Fin 128) (t : Fin 960) :
    k0_pay21 v21 v22 v23 v24 v27 v30 v33 v36 (ix2 r t)
      = (k0_pay18 v21 v23 (ix2 r (0 : Fin 1)) - k0_pay16 v21 v23 (ix2 r (0 : Fin 1)))
          * (k0_pay19 v22 v24 (ix2 r (0 : Fin 1)) - k0_pay17 v22 v24 (ix2 r (0 : Fin 1)))
        + (v33 (ix2 (0 : Fin 1) t) - v27 (ix2 (0 : Fin 1) t)) * (v36 (ix2 (0 : Fin 1) t) - v30 (ix2 (0 : Fin 1) t))
        - k0_pay20 v21 v22 v23 v24 v27 v30 v33 v36 (ix2 r t) := by
  simp only [k0_pay21, mulf_apply, addf_apply, subf_apply, broadcastTo_a1_ab_apply, broadcastTo_1b_ab_apply]

/-- The sum of the four absolute coordinate differences, the first two terms given. -/
theorem pay15_apply (v40 v41 v42 : FVec Ideal S128x960 .f32) (r : Fin 128) (t : Fin 960) :
    k0_pay15 v23 v24 v33 v36 v40 v41 v42 (ix2 r t)
      = v40 (ix2 r t) + CostSpec.abs' (v41 (ix2 r t) - v42 (ix2 r t))
        + CostSpec.abs' (v23 (ix2 r (0 : Fin 1)) - v33 (ix2 (0 : Fin 1) t))
        + CostSpec.abs' (v24 (ix2 r (0 : Fin 1)) - v36 (ix2 (0 : Fin 1) t)) := by
  simp only [k0_pay15, addf_apply, subf_apply, absf_apply, broadcastTo_a1_ab_apply, broadcastTo_1b_ab_apply]

end Pointwise

/-! ## The payloads that read the loaded blocks -/

section Loaded
variable (v0 : Vec Ideal S1x128x92 .f32) (v2 : Vec Ideal S1x128x4 .f32) (v4 : Vec Ideal S960x4 .f32) (v5 : Vec Ideal S92x960 .f32)

/-- The kernel's first payload is one minus the product of the softmax block with the class table. -/
theorem pay3_eq :
    k0_pay3 (F := Ideal) v0 v5
      = subf (broadcast S128x960 (Scalar.ofBits .f32 0x3F800000#32))
          (matmul dot_S128x92_S92x960_S128x960_1_0_0_1_n_n (some .fp32) (probV v0)
            (shapeCast S92x960 v5 shapeCasts_S92x960_S92x960 : FVec Ideal S92x960 .f32) (constant S128x960 .f32 0x00000000#32)) := rfl

/-- One minus the probability the softmax of row `r` gives target `t`'s class. -/
theorem pay3_apply (r : Fin 128) (t : Fin 960) :
    k0_pay3 (F := Ideal) v0 v5 (ix2 r t)
      = CostSpec.one - ∑ c : Fin 92, CostSpec.prob (fun c' : Fin 92 => v0 (ix3 (0 : Fin 1) r c')) c * v5 (ix2 c t) := by
  refine (congrFun (pay3_eq v0 v5) (ix2 r t)).trans ?_
  show CostSpec.one - matmul dot_S128x92_S92x960_S128x960_1_0_0_1_n_n (some .fp32) (probV v0)
      (shapeCast S92x960 v5 shapeCasts_S92x960_S92x960 : FVec Ideal S92x960 .f32) (constant (F := Ideal) S128x960 .f32 0x00000000#32) (ix2 r t) = _
  refine congrArg (CostSpec.one - ·) ?_
  refine (matmul_zero_apply _ _ r t).trans ?_
  refine Finset.sum_congr rfl fun c _ => ?_
  rw [probV_apply, shapeCast_self]

/-- The first absolute difference, the predicted centre's first coordinate against the target's first. -/
theorem pay12_apply (r : Fin 128) (t : Fin 960) :
    k0_pay12 (F := Ideal) v2 v4 (ix2 r t)
      = CostSpec.abs' (v2 (ix3 (0 : Fin 1) r (0 : Fin 4)) - v4 (ix2 t (0 : Fin 4))) := by
  simp only [k0_pay12, absf_apply, subf_apply, broadcastTo_a1_ab_apply, broadcastTo_1b_ab_apply, pay4_apply, pay8_apply]

/-- The predicted centre's second coordinate along the targets. -/
theorem pay13_apply (r : Fin 128) (t : Fin 960) :
    k0_pay13 (F := Ideal) v2 (ix2 r t) = v2 (ix3 (0 : Fin 1) r (1 : Fin 4)) := by
  unfold k0_pay13
  exact (broadcastTo_a1_ab_apply _ _ r t).trans (pay5_apply v2 r)

/-- The targets' second coordinate along the rows. -/
theorem pay14_apply (r : Fin 128) (t : Fin 960) :
    k0_pay14 (F := Ideal) v4 (ix2 r t) = v4 (ix2 t (1 : Fin 4)) := by
  unfold k0_pay14
  exact (broadcastTo_1b_ab_apply _ _ r t).trans (pay9_apply v4 t)

end Loaded

/-! ## The stored value -/

section Store
variable (v20 v55 v92 v96 : FVec Ideal S128x960 .f32) (v27 v30 v33 v36 : FVec Ideal S1x960 .f32)
  (v58 v61 v64 v67 : FVec Ideal S128x1 .f32)

/-- The weighted sum of the three cost terms, the hull's area computed from the corners. -/
theorem pay1_apply (r : Fin 128) (t : Fin 960) :
    k0_pay1 v20 v27 v30 v33 v36 v55 v58 v61 v64 v67 v92 v96 (ix3 (0 : Fin 1) r t)
      = CostSpec.one * v20 (ix2 r t) + CostSpec.five * v55 (ix2 r t)
        + CostSpec.two * (CostSpec.one
            - (Ideal.div (v92 (ix2 r t)) (v96 (ix2 r t))
                - Ideal.div
                    (max (max (v64 (ix2 r (0 : Fin 1))) (v33 (ix2 (0 : Fin 1) t))
                            - min (v58 (ix2 r (0 : Fin 1))) (v27 (ix2 (0 : Fin 1) t))) CostSpec.zero
                      * max (max (v67 (ix2 r (0 : Fin 1))) (v36 (ix2 (0 : Fin 1) t))
                            - min (v61 (ix2 r (0 : Fin 1))) (v30 (ix2 (0 : Fin 1) t))) CostSpec.zero
                      - v96 (ix2 r t))
                    (max (max (v64 (ix2 r (0 : Fin 1))) (v33 (ix2 (0 : Fin 1) t))
                            - min (v58 (ix2 r (0 : Fin 1))) (v27 (ix2 (0 : Fin 1) t))) CostSpec.zero
                      * max (max (v67 (ix2 r (0 : Fin 1))) (v36 (ix2 (0 : Fin 1) t))
                            - min (v61 (ix2 r (0 : Fin 1))) (v30 (ix2 (0 : Fin 1) t))) CostSpec.zero))) := by
  unfold k0_pay1
  refine (shapeCast_ab_1ab_apply _ _ (0 : Fin 1) r t).trans ?_
  simp only [mulf_apply, addf_apply, subf_apply, divf_apply, maximumf_apply, minimumf_apply, broadcast_apply,
    broadcastTo_a1_ab_apply, broadcastTo_1b_ab_apply]
  rfl

end Store

/-- Entry (r, t) of the stored block is the pair cost of row `r`'s logits and box against target `t`'s box, with the
    class probability taken as the product of the softmax row with column `t` of the class table. It depends on row `r`
    of the logits and box blocks only. -/
theorem stored_apply (v0 : Vec Ideal S1x128x92 .f32) (v2 : Vec Ideal S1x128x4 .f32) (v4 : Vec Ideal S960x4 .f32)
    (v5 : Vec Ideal S92x960 .f32) (r : Fin 128) (t : Fin 960) :
    stored (F := Ideal) v0 v2 v4 v5 (ix3 (0 : Fin 1) r t)
      = CostSpec.cost (∑ c : Fin 92, CostSpec.prob (fun c' : Fin 92 => v0 (ix3 (0 : Fin 1) r c')) c * v5 (ix2 c t))
          (v2 (ix3 (0 : Fin 1) r (0 : Fin 4))) (v2 (ix3 (0 : Fin 1) r (1 : Fin 4))) (v2 (ix3 (0 : Fin 1) r (2 : Fin 4))) (v2 (ix3 (0 : Fin 1) r (3 : Fin 4)))
          (v4 (ix2 t (0 : Fin 4))) (v4 (ix2 t (1 : Fin 4))) (v4 (ix2 t (2 : Fin 4))) (v4 (ix2 t (3 : Fin 4))) := by
  unfold stored
  rw [pay1_apply, pay3_apply, pay15_apply, pay20_apply, pay21_apply, pay20_apply, pay12_apply, pay13_apply, pay14_apply,
    pay16_apply, pay17_apply, pay18_apply, pay19_apply, pay4_apply, pay5_apply, pay6_apply, pay7_apply,
    pay8_apply, pay9_apply, pay10_apply, pay11_apply]
  rfl

end Cert.KernelIdeal.Cell

end
-- ==== Proof.KData.lean ====
/-
  The proof data of the idealized kernel's one pipeline, at the extended reals. After the body at grid point t the logits
  and box staging buffers hold their blocks (the rows inside the array; past the array's end a filler nothing reads), the
  target-box and class-table buffers hold their whole arrays, and the output buffer holds the stored value of those.
  The output's rows inside the array depend on the same rows of the logits and box blocks only, so whatever the
  buffers' tails held, the body leaves the stated contents on the rows that are written back.
-/
import proofs.«410581_j76922864271401_1_alg».proof.Proof.KBody
import proofs.«410581_j76922864271401_1_alg».proof.Proof.KernelCell
import proofs.«410581_j76922864271401_1_alg».proof.Proof.Gen.KernelIdeal.Frame

set_option maxRecDepth 16384

noncomputable section

namespace Cert.KernelIdeal.Data

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The logits block at point t, filled out past the array's end with zeros. -/
def aft0 (c : Dev nD) (t : Fin cfg0.N) : S1x128x92.Idx → EReal :=
  win0_0.fill (grid0.coords t) (fun _ => 0) (iblk m c 0 t)
/-- The predicted-box block at point t, filled out likewise. -/
def aft1 (c : Dev nD) (t : Fin cfg0.N) : S1x128x4.Idx → EReal :=
  win0_1.fill (grid0.coords t) (fun _ => 0) (iblk m c 1 t)
/-- The output block at point t: the stored value of those and of the two whole arrays. -/
def aft4 (c : Dev nD) (t : Fin cfg0.N) : S1x128x960.Idx → EReal :=
  stored (F := Ideal) (aft0 m c t) (aft1 m c t) (iblk m c 2 t) (iblk m c 3 t)

/-- The proof data. -/
def dats (_ : Fin 1) (c : Dev nD) : Dat τ (Elt Ideal) Unit ℕ (UR sig nD τ) ℕ cfg0 c where
  A w := V m c (Pipeline.arrRef spec0 w)
  after w t := match w with
    | ⟨0, _⟩ => aft0 m c t
    | ⟨1, _⟩ => aft1 m c t
    | ⟨2, _⟩ => iblk m c 2 t
    | ⟨3, _⟩ => iblk m c 3 t
    | ⟨4, _⟩ => aft4 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = aft0 m c t := by dsimp only [dats]
theorem after0_1 (c : Dev nD) (t : Fin cfg0.N) : (dats m 0 c).after 1 t = aft1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = aft4 m c t := by dsimp only [dats]

/-- What the body finds: the two clipped inputs just fetched, their blocks on the rows inside the array and `d` past it; -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) :
    (dats m 0 c).before 1 t d = win0_1.fill (grid0.coords t) d (iblk m c 1 t) := by
  unfold Dat.before; rw [if_pos (fetch0_1 t)]; rfl
/-- the two whole arrays, fetched once and kept; -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- the output's buffer at contents nothing names (it is written back at every point). -/
theorem before0_4 (c : Dev nD) (t : Fin cfg0.N) (d) : (dats m 0 c).before 4 t d = d :=
  (dats m 0 c).before_out_reset 4 rfl t
    (by by_cases h : t.val = 0
        · exact .inl h
        · exact .inr ⟨h, flush0_4 _⟩) d

/-- The output buffer after the body is the stored value itself: its one store is over the whole buffer and the loads
    are of the whole buffers. -/
theorem outBlk_eq (x0 : S1x128x92.Idx → EReal) (x1 : S1x128x4.Idx → EReal) (x2 : S960x4.Idx → EReal) (x3 : S92x960.Idx → EReal) :
    outBlk (F := Ideal) x0 x1 x2 x3 = stored (F := Ideal) x0 x1 x2 x3 := by
  have hz3 : (![0, 0, 0] : Fin 3 → Nat) = fun _ => 0 := funext fun a => by fin_cases a <;> rfl
  have hz2 : (![0, 0] : Fin 2 → Nat) = fun _ => 0 := funext fun a => by fin_cases a <;> rfl
  unfold outBlk
  rw [View.canon_unit_zero hz3]
  simp only [View.ld_unit_zero (S := S1x128x92) hz3, View.ld_unit_zero (S := S1x128x4) hz3,
    View.ld_unit_zero (S := S960x4) hz2, View.ld_unit_zero (S := S92x960) hz2]

/-- How the transfers cut the three clipped windows' blocks at a point: never on the batch axis or the last axis, and on
    the row axis all three alike. -/
theorem xsizes : ∀ t : Fin cfg0.N,
    win0_0.xsize (grid0.coords t) 0 = 1 ∧ win0_0.xsize (grid0.coords t) 1 = win0_4.xsize (grid0.coords t) 1 ∧ win0_0.xsize (grid0.coords t) 2 = 92
    ∧ win0_1.xsize (grid0.coords t) 0 = 1 ∧ win0_1.xsize (grid0.coords t) 1 = win0_4.xsize (grid0.coords t) 1 ∧ win0_1.xsize (grid0.coords t) 2 = 4
    ∧ win0_4.xsize (grid0.coords t) 0 = 1 ∧ win0_4.xsize (grid0.coords t) 2 = 960 :=
  (by decide +kernel : ∀ t : Fin grid0.N,
    win0_0.xsize (grid0.coords t) 0 = 1 ∧ win0_0.xsize (grid0.coords t) 1 = win0_4.xsize (grid0.coords t) 1 ∧ win0_0.xsize (grid0.coords t) 2 = 92
    ∧ win0_1.xsize (grid0.coords t) 0 = 1 ∧ win0_1.xsize (grid0.coords t) 1 = win0_4.xsize (grid0.coords t) 1 ∧ win0_1.xsize (grid0.coords t) 2 = 4
    ∧ win0_4.xsize (grid0.coords t) 0 = 1 ∧ win0_4.xsize (grid0.coords t) 2 = 960)

/-- A row of the logits block that the output's write-back moves is one the fetch filled: the filler is not read there. -/
theorem fill0_congr (t : Fin cfg0.N) (d d' : S1x128x92.Idx → EReal) (g : (win0_0.xblock (grid0.coords t)).Idx → EReal)
    (r : Fin 128) (hr : r.val < win0_4.xsize (grid0.coords t) 1) (cc : Fin 92) :
    win0_0.fill (grid0.coords t) d g (ix3 (0 : Fin 1) r cc) = win0_0.fill (grid0.coords t) d' g (ix3 (0 : Fin 1) r cc) := by
  obtain ⟨h0, h1, h2, -⟩ := xsizes t
  have hm : win0_0.moved (grid0.coords t) (ix3 (0 : Fin 1) r cc) = true := (win0_0.moved_iff _ _).mpr fun a => by
    match a with
    | ⟨0, _⟩ => show 0 < win0_0.xsize (grid0.coords t) 0; rw [h0]; exact Nat.one_pos
    | ⟨1, _⟩ => show r.val < win0_0.xsize (grid0.coords t) 1; rw [h1]; exact hr
    | ⟨2, _⟩ => show cc.val < win0_0.xsize (grid0.coords t) 2; rw [h2]; exact cc.isLt
  unfold Window.fill; rw [dif_pos hm, dif_pos hm]

/-- The same for the box block. -/
theorem fill1_congr (t : Fin cfg0.N) (d d' : S1x128x4.Idx → EReal) (g : (win0_1.xblock (grid0.coords t)).Idx → EReal)
    (r : Fin 128) (hr : r.val < win0_4.xsize (grid0.coords t) 1) (k : Fin 4) :
    win0_1.fill (grid0.coords t) d g (ix3 (0 : Fin 1) r k) = win0_1.fill (grid0.coords t) d' g (ix3 (0 : Fin 1) r k) := by
  obtain ⟨-, -, -, h0, h1, h2, -⟩ := xsizes t
  have hm : win0_1.moved (grid0.coords t) (ix3 (0 : Fin 1) r k) = true := (win0_1.moved_iff _ _).mpr fun a => by
    match a with
    | ⟨0, _⟩ => show 0 < win0_1.xsize (grid0.coords t) 0; rw [h0]; exact Nat.one_pos
    | ⟨1, _⟩ => show r.val < win0_1.xsize (grid0.coords t) 1; rw [h1]; exact hr
    | ⟨2, _⟩ => show k.val < win0_1.xsize (grid0.coords t) 2; rw [h2]; exact k.isLt
  unfold Window.fill; rw [dif_pos hm, dif_pos hm]

/-- ROW LOCALITY: the part of the stored block that is written back does not depend on what fills the logits and box
    buffers past the array's end — an entry of row r reads row r of each, and a row that is written back was fetched. -/
theorem cut_stored_congr (t : Fin cfg0.N) (d0 d0' : S1x128x92.Idx → EReal) (g0 : (win0_0.xblock (grid0.coords t)).Idx → EReal)
    (d1 d1' : S1x128x4.Idx → EReal) (g1 : (win0_1.xblock (grid0.coords t)).Idx → EReal)
    (x2 : S960x4.Idx → EReal) (x3 : S92x960.Idx → EReal) :
    win0_4.cut (grid0.coords t) (stored (F := Ideal) (win0_0.fill (grid0.coords t) d0 g0) (win0_1.fill (grid0.coords t) d1 g1) x2 x3)
      = win0_4.cut (grid0.coords t) (stored (F := Ideal) (win0_0.fill (grid0.coords t) d0' g0) (win0_1.fill (grid0.coords t) d1' g1) x2 x3) := by
  funext j
  obtain ⟨-, -, -, -, -, -, h40, h42⟩ := xsizes t
  have hj0 : (j 0).val < 1 := by have := (j 0).isLt; rw [← h40]; exact this
  have hj1 : (j 1).val < win0_4.xsize (grid0.coords t) 1 := (j 1).isLt
  have hj1' : (j 1).val < 128 := Nat.lt_of_lt_of_le hj1 (win0_4.xsize_le (grid0.coords t) 1)
  have hj2 : (j 2).val < 960 := by have := (j 2).isLt; rw [← h42]; exact this
  have e : win0_4.xinj (grid0.coords t) j = ix3 (0 : Fin 1) (⟨(j 1).val, hj1'⟩ : Fin 128) (⟨(j 2).val, hj2⟩ : Fin 960) :=
    funext fun a => Fin.ext (by
      match a with
      | ⟨0, _⟩ => show (j 0).val = 0; omega
      | ⟨1, _⟩ => rfl
      | ⟨2, _⟩ => rfl)
  show stored (F := Ideal) _ _ x2 x3 (win0_4.xinj (grid0.coords t) j) = stored (F := Ideal) _ _ x2 x3 (win0_4.xinj (grid0.coords t) j)
  rw [e, Cell.stored_apply, Cell.stored_apply]
  simp only [fill0_congr t d0 d0' g0 ⟨(j 1).val, hj1'⟩ hj1, fill1_congr t d1 d1' g1 ⟨(j 1).val, hj1'⟩ hj1]

/-- What the body leaves in the output buffer, whatever filled the clipped inputs' tails, is the stated contents on the
    rows that are written back. -/
theorem leaves4 (c : Dev nD) (t : Fin cfg0.N) (d0 : S1x128x92.Idx → EReal) (d1 : S1x128x4.Idx → EReal) :
    (win0 4).fill (grid0.coords t)
        (outBlk (F := Ideal) (win0_0.fill (grid0.coords t) d0 (iblk m c 0 t)) (win0_1.fill (grid0.coords t) d1 (iblk m c 1 t)) (iblk m c 2 t) (iblk m c 3 t))
        ((win0 4).cut (grid0.coords t) ((dats m 0 c).after 4 t))
      = outBlk (F := Ideal) (win0_0.fill (grid0.coords t) d0 (iblk m c 0 t)) (win0_1.fill (grid0.coords t) d1 (iblk m c 1 t)) (iblk m c 2 t) (iblk m c 3 t) := by
  rw [outBlk_eq]
  exact win0_4.fill_congr_cut (grid0.coords t) (cut_stored_congr t d0 (fun _ => 0) (iblk m c 0 t) d1 (fun _ => 0) (iblk m c 1 t) (iblk m c 2 t) (iblk m c 3 t))

/-- The body obligation: the clipped inputs arrive holding their blocks with anything past the array's end, the whole
    arrays' buffers holding the arrays, the output's anything; the body leaves the inputs' as they were and the output's
    at the stored value, which on the rows written back is the stated one (row locality). -/
theorem body_obligation (c : Dev nD) : BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3, before0_4 m c t d4]
  iapply (sound_kernel (F := Ideal) c Set.univ (grid0.coords t) _ _ _ _ _ _ _ _ _ _
    (win0_0.fill (grid0.coords t) d0 (iblk m c 0 t)) (win0_1.fill (grid0.coords t) d1 (iblk m c 1 t)) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  have hx : win0_0.cut (grid0.coords t) (aft0 m c t) = iblk m c 0 t := win0_0.cut_fill _ _ _
  have hy : win0_1.cut (grid0.coords t) (aft1 m c t) = iblk m c 1 t := win0_1.cut_fill _ _ _
  isplitl [H0]
  · iexists d0
    rw [after0_0]
    change _ ⊢ owns (c : Thread nD τ) (stage0_0 (cfg0.slots t 0)) fullShare (win0_0.fill (grid0.coords t) d0 (win0_0.cut (grid0.coords t) (aft0 m c t)))
    rw [hx]; try iexact H0
  isplitl [H1]
  · iexists d1
    rw [after0_1]
    change _ ⊢ owns (c : Thread nD τ) (stage0_1 (cfg0.slots t 1)) fullShare (win0_1.fill (grid0.coords t) d1 (win0_1.cut (grid0.coords t) (aft1 m c t)))
    rw [hy]; try iexact H1
  isplitl [H2]
  · rw [after0_2]; iexact H2
  isplitl [H3]
  · rw [after0_3]; iexact H3
  · iexists outBlk (F := Ideal) (win0_0.fill (grid0.coords t) d0 (iblk m c 0 t)) (win0_1.fill (grid0.coords t) d1 (iblk m c 1 t)) (iblk m c 2 t) (iblk m c 3 t)
    rw [leaves4 m c t d0 d1]; try iexact H4

end Cert.KernelIdeal.Data

end
-- ==== Proof.KRun.lean ====
/-
  The run of the idealized kernel's program: every weakly fair execution terminates without a fault, each array of the
  pipeline ends at what the write-backs of the proof data leave, and every other buffer is as the region found it.
-/
import proofs.«410581_j76922864271401_1_alg».proof.Proof.KData
import Idealize.ShloMosaic.Lib.Pipeline.Frame

set_option maxRecDepth 16384

noncomputable section

namespace Cert.KernelIdeal.Data

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

set_option backward.isDefEq.respectTransparency.types false in
/-- The frame run over the proof data. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The argument arrays end as they began. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Data

end
-- ==== Proof.KFinal.lean ====
/-
  From blocks to the array. Grid point t = (b, n) writes back rows 128·n … of batch b of the result — all 128 rows, or the
  4 that are left at n = 7 —, and what it writes is that block of ONE whole-array function of the arrays the region reads:
  entry (b, q, t') is the pair cost of prediction (b, q) against target t'. The 16 × 8 blocks cover the 16 × 900 × 960
  result, so the result array ends holding that function.
-/
import proofs.«410581_j76922864271401_1_alg».proof.Proof.KData

set_option maxRecDepth 16384

noncomputable section

namespace Cert.KernelIdeal.Data

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The pair cost of prediction (b, q) against target t', over the logits, the predicted boxes, the target boxes and
    the class table. -/
def cell (a0 : S16x900x92.Idx → EReal) (a1 : S16x900x4.Idx → EReal) (a3 : S960x4.Idx → EReal) (oh : S92x960.Idx → EReal)
    (b : Fin 16) (q : Fin 900) (t' : Fin 960) : EReal :=
  CostSpec.cost (∑ cc : Fin 92, CostSpec.prob (fun c' : Fin 92 => a0 (ix3 b q c')) cc * oh (ix2 cc t'))
    (a1 (ix3 b q (0 : Fin 4))) (a1 (ix3 b q (1 : Fin 4))) (a1 (ix3 b q (2 : Fin 4))) (a1 (ix3 b q (3 : Fin 4)))
    (a3 (ix2 t' (0 : Fin 4))) (a3 (ix2 t' (1 : Fin 4))) (a3 (ix2 t' (2 : Fin 4))) (a3 (ix2 t' (3 : Fin 4)))

/-- The whole result. -/
def costArr (a0 : S16x900x92.Idx → EReal) (a1 : S16x900x4.Idx → EReal) (a3 : S960x4.Idx → EReal) (oh : S92x960.Idx → EReal) :
    S16x900x960.Idx → EReal :=
  fun i => cell a0 a1 a3 oh ⟨(i 0).val, (i 0).isLt⟩ ⟨(i 1).val, (i 1).isLt⟩ ⟨(i 2).val, (i 2).isLt⟩

/-- The printed index maps, decided over the grid: the logits' and boxes' blocks move with the output's on the batch and
    row axes and stay at 0 on the last; the two whole arrays stay at block 0; the output's block indices are in range. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = win0_4.index t (1 : Fin 3) ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (2 : Fin 3) = 0 ∧ win0_4.index t (0 : Fin 3) ≤ 15 ∧ win0_4.index t (1 : Fin 3) ≤ 7 :=
  (by decide +kernel : ∀ t : Fin grid0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = win0_4.index t (1 : Fin 3) ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (2 : Fin 3) = 0 ∧ win0_4.index t (0 : Fin 3) ≤ 15 ∧ win0_4.index t (1 : Fin 3) ≤ 7)

/-- Every (batch, row-block) pair is some point's. -/
theorem idx_onto : ∀ (q0 : Fin 16) (q1 : Fin 8), ∃ t : Fin cfg0.N, win0_4.index t = ![q0.val, q1.val, 0] :=
  (by decide +kernel : ∀ (q0 : Fin 16) (q1 : Fin 8), ∃ t : Fin grid0.N, win0_4.index t = ![q0.val, q1.val, 0])

/-- A row of the logits block that is written back, read through the fill: the array's entry under it. -/
theorem aft0_row (c : Dev nD) (t : Fin cfg0.N) (j : (win0_4.xblock (grid0.coords t)).Idx) (hj1' : (j 1).val < 128) (c' : Fin 92) :
    aft0 m c t (ix3 (0 : Fin 1) (⟨(j 1).val, hj1'⟩ : Fin 128) c')
      = V m c main_arg0 (ix3 (⟨(((cfg0.win 4).blk t).view.emb j 0).val, (((cfg0.win 4).blk t).view.emb j 0).isLt⟩ : Fin 16)
          (⟨(((cfg0.win 4).blk t).view.emb j 1).val, (((cfg0.win 4).blk t).view.emb j 1).isLt⟩ : Fin 900) c') := by
  obtain ⟨h0, h1, h2, -⟩ := xsizes t
  obtain ⟨e0, e1, e2, -⟩ := idx_facts t
  obtain ⟨-, -, -, -, -, -, h40, h42⟩ := xsizes t
  have hj0 : (j 0).val < 1 := by have := (j 0).isLt; rw [← h40]; exact this
  have hm : win0_0.moved (grid0.coords t) (ix3 (0 : Fin 1) (⟨(j 1).val, hj1'⟩ : Fin 128) c') = true := (win0_0.moved_iff _ _).mpr fun a => by
    match a with
    | ⟨0, _⟩ => show 0 < win0_0.xsize (grid0.coords t) 0; rw [h0]; exact Nat.one_pos
    | ⟨1, _⟩ => show (j 1).val < win0_0.xsize (grid0.coords t) 1; rw [h1]; exact (j 1).isLt
    | ⟨2, _⟩ => show c'.val < win0_0.xsize (grid0.coords t) 2; rw [h2]; exact c'.isLt
  unfold aft0 Window.fill; rw [dif_pos hm]
  unfold iblk
  rw [View.read_apply]
  refine congrArg (V m c main_arg0) ?_
  funext a; apply Fin.ext
  match a with
  | ⟨0, _⟩ => show win0_0.index t (0 : Fin 3) * 1 + 1 * 0 = win0_4.index t (0 : Fin 3) * 1 + 1 * (j 0).val; omega
  | ⟨1, _⟩ => show win0_0.index t (1 : Fin 3) * 128 + 1 * (j 1).val = win0_4.index t (1 : Fin 3) * 128 + 1 * (j 1).val; omega
  | ⟨2, _⟩ => show win0_0.index t (2 : Fin 3) * 92 + 1 * c'.val = c'.val; omega

/-- The same for the box block. -/
theorem aft1_row (c : Dev nD) (t : Fin cfg0.N) (j : (win0_4.xblock (grid0.coords t)).Idx) (hj1' : (j 1).val < 128) (k : Fin 4) :
    aft1 m c t (ix3 (0 : Fin 1) (⟨(j 1).val, hj1'⟩ : Fin 128) k)
      = V m c main_arg1 (ix3 (⟨(((cfg0.win 4).blk t).view.emb j 0).val, (((cfg0.win 4).blk t).view.emb j 0).isLt⟩ : Fin 16)
          (⟨(((cfg0.win 4).blk t).view.emb j 1).val, (((cfg0.win 4).blk t).view.emb j 1).isLt⟩ : Fin 900) k) := by
  obtain ⟨-, -, -, h0, h1, h2, h40, h42⟩ := xsizes t
  obtain ⟨-, -, -, e0, e1, e2, -⟩ := idx_facts t
  have hj0 : (j 0).val < 1 := by have := (j 0).isLt; rw [← h40]; exact this
  have hm : win0_1.moved (grid0.coords t) (ix3 (0 : Fin 1) (⟨(j 1).val, hj1'⟩ : Fin 128) k) = true := (win0_1.moved_iff _ _).mpr fun a => by
    match a with
    | ⟨0, _⟩ => show 0 < win0_1.xsize (grid0.coords t) 0; rw [h0]; exact Nat.one_pos
    | ⟨1, _⟩ => show (j 1).val < win0_1.xsize (grid0.coords t) 1; rw [h1]; exact (j 1).isLt
    | ⟨2, _⟩ => show k.val < win0_1.xsize (grid0.coords t) 2; rw [h2]; exact k.isLt
  unfold aft1 Window.fill; rw [dif_pos hm]
  unfold iblk
  rw [View.read_apply]
  refine congrArg (V m c main_arg1) ?_
  funext a; apply Fin.ext
  match a with
  | ⟨0, _⟩ => show win0_1.index t (0 : Fin 3) * 1 + 1 * 0 = win0_4.index t (0 : Fin 3) * 1 + 1 * (j 0).val; omega
  | ⟨1, _⟩ => show win0_1.index t (1 : Fin 3) * 128 + 1 * (j 1).val = win0_4.index t (1 : Fin 3) * 128 + 1 * (j 1).val; omega
  | ⟨2, _⟩ => show win0_1.index t (2 : Fin 3) * 4 + 1 * k.val = k.val; omega

/-- The target boxes' buffer holds the whole array at every point. -/
theorem iblk2_at (c : Dev nD) (t : Fin cfg0.N) (t' : Fin 960) (k : Fin 4) :
    iblk m c 2 t (ix2 t' k) = V m c main_arg3 (ix2 t' k) := by
  obtain ⟨-, -, -, -, -, -, e0, e1, -⟩ := idx_facts t
  unfold iblk
  rw [View.read_apply]
  refine congrArg (V m c main_arg3) ?_
  funext a; apply Fin.ext
  match a with
  | ⟨0, _⟩ => show win0_2.index t (0 : Fin 2) * 960 + 1 * t'.val = t'.val; omega
  | ⟨1, _⟩ => show win0_2.index t (1 : Fin 2) * 4 + 1 * k.val = k.val; omega

/-- The class table's buffer likewise. -/
theorem iblk3_at (c : Dev nD) (t : Fin cfg0.N) (cc : Fin 92) (t' : Fin 960) :
    iblk m c 3 t (ix2 cc t') = V m c main_v6 (ix2 cc t') := by
  obtain ⟨-, -, -, -, -, -, -, -, e0, e1, -⟩ := idx_facts t
  unfold iblk
  rw [View.read_apply]
  refine congrArg (V m c main_v6) ?_
  funext a; apply Fin.ext
  match a with
  | ⟨0, _⟩ => show win0_3.index t (0 : Fin 2) * 92 + 1 * cc.val = cc.val; omega
  | ⟨1, _⟩ => show win0_3.index t (1 : Fin 2) * 960 + 1 * t'.val = t'.val; omega

/-- WHAT POINT t WRITES BACK is its block of the whole result. -/
theorem flushed4_eq (c : Dev nD) (t : Fin cfg0.N) :
    (dats m 0 c).flushed 4 t
      = ((cfg0.win 4).blk t).view.read (Elt Ideal) (costArr (V m c main_arg0) (V m c main_arg1) (V m c main_arg3) (V m c main_v6)) := by
  show (cfg0.win 4).cut (grid0.coords t) ((dats m 0 c).after 4 t) = _
  rw [after0_4]
  funext j
  obtain ⟨-, -, -, -, -, -, h40, h42⟩ := xsizes t
  obtain ⟨-, -, -, -, -, -, -, -, -, -, e42, -⟩ := idx_facts t
  have hj0 : (j 0).val < 1 := by have := (j 0).isLt; rw [← h40]; exact this
  have hj1' : (j 1).val < 128 := Nat.lt_of_lt_of_le (j 1).isLt (win0_4.xsize_le (grid0.coords t) 1)
  have hj2 : (j 2).val < 960 := by have := (j 2).isLt; rw [← h42]; exact this
  have e : win0_4.xinj (grid0.coords t) j = ix3 (0 : Fin 1) (⟨(j 1).val, hj1'⟩ : Fin 128) (⟨(j 2).val, hj2⟩ : Fin 960) :=
    funext fun a => Fin.ext (by
      match a with
      | ⟨0, _⟩ => show (j 0).val = 0; omega
      | ⟨1, _⟩ => rfl
      | ⟨2, _⟩ => rfl)
  have e2 : (⟨(((cfg0.win 4).blk t).view.emb j 2).val, (((cfg0.win 4).blk t).view.emb j 2).isLt⟩ : Fin 960) = ⟨(j 2).val, hj2⟩ :=
    Fin.ext (by show win0_4.index t (2 : Fin 3) * 960 + 1 * (j 2).val = (j 2).val; omega)
  show aft4 m c t (win0_4.xinj (grid0.coords t) j) = _
  rw [e, View.read_apply]
  unfold aft4 costArr cell
  rw [Cell.stored_apply, e2]
  simp only [aft0_row m c t j hj1', aft1_row m c t j hj1', iblk2_at, iblk3_at]
  exact (cast_eq _ _).symm

/-- An index of the result is in point t's block iff each coordinate is in the block's range on its axis. -/
theorem mem_blk4 (t : Fin cfg0.N) (i : S16x900x960.Idx) :
    i ∈ ((cfg0.win 4).blk t).view.set ↔ ∀ a : Fin 3, win0_4.index t a * S1x128x960.size a ≤ (i a).val
      ∧ (i a).val < win0_4.index t a * S1x128x960.size a + win0_4.xsize (grid0.coords t) a := by
  show i ∈ ((View.whole main_v7).slice (win0_4.rect t)).set ↔ _
  rw [View.set_slice_whole, Rect.mem_set_unit]
  exact Iff.rfl

/-- How many rows point t's block has inside the array: all 128 for the first seven row-blocks, 4 for the last. -/
theorem rows_at : ∀ t : Fin cfg0.N,
    (win0_4.index t (1 : Fin 3) ≤ 6 ∧ win0_4.xsize (grid0.coords t) 1 = 128) ∨ (win0_4.index t (1 : Fin 3) = 7 ∧ win0_4.xsize (grid0.coords t) 1 = 4) :=
  (by decide +kernel : ∀ t : Fin grid0.N,
    (win0_4.index t (1 : Fin 3) ≤ 6 ∧ win0_4.xsize (grid0.coords t) 1 = 128) ∨ (win0_4.index t (1 : Fin 3) = 7 ∧ win0_4.xsize (grid0.coords t) 1 = 4))

/-- THE COVER: entry (b, q, t') of the result lies in the block of the point of batch b and row-block q / 128. -/
theorem covered4 (i : S16x900x960.Idx) :
    ∃ t : Fin cfg0.N, (cfg0.win 4).flush t = true ∧ i ∈ ((cfg0.win 4).blk t).view.set := by
  have hi0 : (i 0).val < 16 := (i 0).isLt
  have hi1 : (i 1).val < 900 := (i 1).isLt
  have hi2 : (i 2).val < 960 := (i 2).isLt
  obtain ⟨t, ht⟩ := idx_onto ⟨(i 0).val, hi0⟩ ⟨(i 1).val / 128, by omega⟩
  have q0 : win0_4.index t (0 : Fin 3) = (i 0).val := congrFun ht 0
  have q1 : win0_4.index t (1 : Fin 3) = (i 1).val / 128 := congrFun ht 1
  have q2 : win0_4.index t (2 : Fin 3) = 0 := congrFun ht 2
  obtain ⟨-, -, -, -, -, -, h40, h42⟩ := xsizes t
  have hr := rows_at t
  refine ⟨t, flush0_4 t, ?_⟩
  rw [mem_blk4]
  intro a
  match a with
  | ⟨0, _⟩ =>
    show win0_4.index t (0 : Fin 3) * 1 ≤ (i 0).val ∧ (i 0).val < win0_4.index t (0 : Fin 3) * 1 + win0_4.xsize (grid0.coords t) 0
    rw [h40]; omega
  | ⟨1, _⟩ =>
    show win0_4.index t (1 : Fin 3) * 128 ≤ (i 1).val ∧ (i 1).val < win0_4.index t (1 : Fin 3) * 128 + win0_4.xsize (grid0.coords t) 1
    rcases hr with ⟨h6, hx⟩ | ⟨h7, hx⟩ <;> rw [hx] <;> omega
  | ⟨2, _⟩ =>
    show win0_4.index t (2 : Fin 3) * 960 ≤ (i 2).val ∧ (i 2).val < win0_4.index t (2 : Fin 3) * 960 + win0_4.xsize (grid0.coords t) 2
    rw [h42]; omega

/-- THE RESULT ARRAY after the run is the whole result function of the arrays the region reads. -/
theorem final4 (c : Dev nD) :
    (dats m 0 c).arrAt 4 cfg0.N = costArr (V m c main_arg0) (V m c main_arg1) (V m c main_arg3) (V m c main_v6) :=
  (dats m 0 c).arrAt_eq_of_cover 4 _ (fun t _ => flushed4_eq m c t) covered4

end Cert.KernelIdeal.Data

end
-- ==== Proof.KValue.lean ====
/-
  The idealized kernel's run, read: every weakly fair execution terminates with the result array holding, at (b, q, t'),
  the pair cost of prediction (b, q) against target t' — over the ARGUMENT arrays and the class table the host code
  built from the labels — and with the arguments as they were.
-/
import proofs.«410581_j76922864271401_1_alg».proof.Proof.KRun
import proofs.«410581_j76922864271401_1_alg».proof.Proof.KFinal

set_option maxRecDepth 16384

noncomputable section

namespace Cert.KernelIdeal.Data

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem run_value : θ_run defs (onTc (τ := τ) (main (F := Ideal))) ⟨m, fun _ => 0, ρ⟩ fun r => ∀ c : Dev nD,
      r.2.mem ((c.tc : Thread nD τ).loc main_v7)
        = costArr (m ((c.tc : Thread nD τ).loc main_arg0)) (m ((c.tc : Thread nD τ).loc main_arg1)) (m ((c.tc : Thread nD τ).loc main_arg3)) (V m c main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).1 4).trans ((final4 m c).trans (by rw [V_main_arg0, V_main_arg1, V_main_arg3])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 2).trans (((dats m 0 c).arrAt_in 2 rfl _).trans ((A_eq m c 2).trans (V_main_arg3 m c)))⟩)
    (run_main m ρ)

end Cert.KernelIdeal.Data

end
-- ==== Proof.Labels.lean ====
/-
  The labels: what the precondition says of them, and the class table the kernel's host code builds from them.
-/
import proofs.«410581_j76922864271401_1_alg».proof.Proof.CostSpec
import proofs.«410581_j76922864271401_1_alg».proof.Pre_finite_inputs
import proofs.«410581_j76922864271401_1_alg».proof.Proof.Gen.Pre_finite_inputs
import Idealize.ShloMosaic.Lib.ValueIdx
import Idealize.ShloMosaic.Lib.ReduceAll
import Idealize.ShloMosaic.Lib.StableHlo.Predicate

noncomputable section

namespace Cert.Labels

open Idealize.ShloMosaic Idealize.ShloMosaic.ValueIdx

/-- The rank-0 shape has one index. -/
instance subsingleton_scalar_idx : Subsingleton Cert.Pre_finite_inputs.S_.Idx := ⟨fun a b => funext fun d => d.elim0⟩

/-- A 32-bit word that compares, signed, at least 0 and below 92 is the word of a class. -/
theorem word_class (x : BitVec 32) (h0 : IntOp.cmpi .sge x 0#32 = 1#1) (h1 : IntOp.cmpi .slt x 92#32 = 1#1) :
    ∃ l : Fin 92, x = BitVec.ofNat 32 l.val := by
  rw [IntOp.cmpi_sge] at h0
  rw [IntOp.cmpi_slt] at h1
  have e0 : (0#32 : BitVec 32).toInt = 0 := by decide
  have e92 : (92#32 : BitVec 32).toInt = 92 := by decide
  rw [e0] at h0
  rw [e92] at h1
  have hx := x.isLt
  have hN : x.toNat < 92 := by
    rw [BitVec.toInt_eq_toNat_cond] at h0 h1
    split at h0 <;> omega
  refine ⟨⟨x.toNat, hN⟩, BitVec.eq_of_toNat_eq ?_⟩
  rw [BitVec.toNat_ofNat]
  exact (Nat.mod_eq_of_lt hx).symm

/-- Under the precondition, at any float instance, every label is a class: the label conjunct does not read the floats. -/
theorem label_of_pre_any {F : FTy → Type} [FloatOps F] [Cert.Pre_finite_inputs.Facts]
    (a0 : FVec F Cert.Pre_finite_inputs.S16x900x92 .f32) (a1 : FVec F Cert.Pre_finite_inputs.S16x900x4 .f32)
    (a2 : IVec Cert.Pre_finite_inputs.S960 32) (a3 : FVec F Cert.Pre_finite_inputs.S960x4 .f32)
    (h : Cert.Pre_finite_inputs.fn (F := F) a0 a1 a2 a3 = fun _ => 1#1) (t : Fin 960) :
    ∃ l : Fin 92, a2 (ix1 t) = BitVec.ofNat 32 l.val := by
  have e := congrFun h ValueIdx.ix0
  dsimp only [Cert.Pre_finite_inputs.fn, Cert.Pre_finite_inputs.fn_part1] at e
  obtain ⟨-, hall⟩ := IntOp.andi_eq_one.1 e
  have hel := Host.reduce_andi_all _ _ _ _ _ hall (ix1 t)
  obtain ⟨hge, hlt⟩ := IntOp.andi_eq_one.1 hel
  exact word_class (a2 (ix1 t)) hge hlt

/-- Under the precondition every label is a class: a word `l` with `0 ≤ l < 92`. -/
theorem label_of_pre [Cert.Pre_finite_inputs.Facts]
    (a0 : FVec Ideal Cert.Pre_finite_inputs.S16x900x92 .f32) (a1 : FVec Ideal Cert.Pre_finite_inputs.S16x900x4 .f32)
    (a2 : IVec Cert.Pre_finite_inputs.S960 32) (a3 : FVec Ideal Cert.Pre_finite_inputs.S960x4 .f32)
    (h : Cert.Pre_finite_inputs.fn (F := Ideal) a0 a1 a2 a3 = fun _ => 1#1) (t : Fin 960) :
    ∃ l : Fin 92, a2 (ix1 t) = BitVec.ofNat 32 l.val :=
  label_of_pre_any a0 a1 a2 a3 h t

/-- Against a one-hot column — 1 at the label's class, 0 elsewhere — the product with a row picks the row's entry at
    the label. -/
theorem sum_onehot (p : Fin 92 → EReal) (l : Fin 92) (oh : Fin 92 → EReal)
    (hoh : ∀ c : Fin 92, oh c = if c = l then 1 else 0) : ∑ c : Fin 92, p c * oh c = p l := by
  rw [Finset.sum_eq_single l]
  · rw [hoh l, if_pos rfl, mul_one]
  · intro c _ hc
    rw [hoh c, if_neg hc, mul_zero]
  · intro hl
    exact absurd (Finset.mem_univ l) hl

end Cert.Labels

end
-- ==== Proof.OneHot.lean ====
/-
  The class table: before its region the kernel's host code lays the labels along the columns and the class numbers
  0 … 91 down the rows of a [92 × 960] rectangle, compares the two for equality and converts the bit to a float. Entry
  (class, target) is therefore 1 when the target's label is that class and 0 otherwise: each column is one-hot at its
  label.
-/
import proofs.«410581_j76922864271401_1_alg».proof.Proof.Gen.KernelIdeal.Frame
import proofs.«410581_j76922864271401_1_alg».proof.Proof.Labels
import Idealize.ShloMosaic.Lib.ValueIdx
import Idealize.ShloMosaic.Lib.StableHlo.Run
import Idealize.ShloMosaic.Lib.StableHlo.Predicate

set_option maxRecDepth 16384

noncomputable section

namespace Cert.KernelIdeal.OneHot

open Cert.KernelIdeal Cert.KernelIdeal.Gen Idealize.ShloMosaic Idealize.ShloMosaic.ValueIdx
open Idealize.ShloMosaic.TcCoe

/-- The rectangle's index (p, q) written by its coordinates, in either of the two spellings. -/
theorem ij_eq_ix2 (p : Fin 92) (q : Fin 960) : StableHlo.Predicate.ij p q = ix2 p q := by
  funext a; match a with | ⟨0, _⟩ => rfl | ⟨1, _⟩ => rfl

theorem ofFin_eq_ix1 {n : Nat} (k : Fin n) : Shape.Idx.ofFin k = ix1 k := by
  funext a; match a with | ⟨0, _⟩ => exact Fin.ext rfl

/-- Two classes whose 32-bit words agree are the same class. -/
theorem class_word_inj (a b : Fin 92) (h : BitVec.ofNat 32 a.val = BitVec.ofNat 32 b.val) : a = b := by
  have e := congrArg BitVec.toNat h
  rw [BitVec.toNat_ofNat, BitVec.toNat_ofNat] at e
  have ha := a.isLt
  have hb := b.isLt
  exact Fin.ext (by omega)

/-- The table's term read at (class, target): the labels laid along the columns meet the class numbers laid down the
    rows; where the target's label is the class `l`, the entry is 1 at row `l` and 0 at every other row. -/
theorem table_read (lab : IVec S960 32) (cls : Fin 92) (t : Fin 960) (l : Fin 92)
    (hl : lab (ix1 t) = BitVec.ofNat 32 l.val) :
    (uitofp (F := Ideal) .f32 (cmpi .eq
        (broadcastInDim S92x960 ![0, 1] bcast_S1x960_S92x960_0_1 (broadcastInDim S1x960 ![1] bcast_S960_S1x960_1 lab))
        (broadcastInDim S92x960 ![0, 1] bcast_S92x1_S92x960_0_1 (broadcastInDim S92x1 ![0] bcast_S92_S92x1_0 (iotaInDim S92 32 0))))
      : S92x960.Idx → EReal) (ix2 cls t) = if cls = l then 1 else 0 := by
  have hA : broadcastInDim S92x960 ![0, 1] bcast_S1x960_S92x960_0_1 (broadcastInDim S1x960 ![1] bcast_S960_S1x960_1 lab) (ix2 cls t)
      = BitVec.ofNat 32 l.val := by
    rw [← ij_eq_ix2]
    refine (StableHlo.Predicate.bcast_cols bcast_S960_S1x960_1 bcast_S1x960_S92x960_0_1 lab cls t).trans ?_
    rw [ofFin_eq_ix1]
    exact hl
  have hB : broadcastInDim S92x960 ![0, 1] bcast_S92x1_S92x960_0_1 (broadcastInDim S92x1 ![0] bcast_S92_S92x1_0 (iotaInDim S92 32 0)) (ix2 cls t)
      = BitVec.ofNat 32 cls.val := by
    rw [← ij_eq_ix2]
    refine (StableHlo.Predicate.bcast_rows bcast_S92_S92x1_0 bcast_S92x1_S92x960_0_1 (iotaInDim S92 32 0) cls t).trans ?_
    exact StableHlo.Predicate.iota_apply cls
  show (((IntOp.cmpi .eq
      (broadcastInDim S92x960 ![0, 1] bcast_S1x960_S92x960_0_1 (broadcastInDim S1x960 ![1] bcast_S960_S1x960_1 lab) (ix2 cls t))
      (broadcastInDim S92x960 ![0, 1] bcast_S92x1_S92x960_0_1 (broadcastInDim S92x1 ![0] bcast_S92_S92x1_0 (iotaInDim S92 32 0)) (ix2 cls t))).toNat : ℝ) : EReal) = _
  rw [hA, hB]
  by_cases h : cls = l
  · subst h
    rw [if_pos rfl, IntOp.cmpi_eq.2 rfl]
    simp
  · rw [if_neg h]
    have hz : IntOp.cmpi .eq (BitVec.ofNat 32 l.val) (BitVec.ofNat 32 cls.val) = 0#1 := by
      rcases BitVec.eq_zero_or_eq_one (IntOp.cmpi .eq (BitVec.ofNat 32 l.val) (BitVec.ofNat 32 cls.val)) with h0 | h1
      · exact h0
      · exact absurd (class_word_inj l cls (IntOp.cmpi_eq.1 h1)).symm h
    rw [hz]
    simp

variable (m : (ℓ : Loc nD τ sig) → Buf (Elt Ideal) ℓ)

/-- The class table the region finds is the host operations' term over the label array. -/
theorem table_eq (c : Dev nD) :
    (Gen.V m c main_v6 : S92x960.Idx → EReal)
      = uitofp (F := Ideal) .f32 (cmpi .eq
          (broadcastInDim S92x960 ![0, 1] bcast_S1x960_S92x960_0_1 (broadcastInDim S1x960 ![1] bcast_S960_S1x960_1 (m ((c : Thread nD τ).loc main_arg2) : IVec S960 32)))
          (broadcastInDim S92x960 ![0, 1] bcast_S92x1_S92x960_0_1 (broadcastInDim S92x1 ![0] bcast_S92_S92x1_0 (iotaInDim S92 32 0)))) := by
  dsimp only [Gen.V, Gen.hostOps0]
  after_results

/-- Column `t` of the class table is one-hot at target `t`'s label. -/
theorem onehot_apply (c : Dev nD) (cls : Fin 92) (t : Fin 960) (l : Fin 92)
    (hl : m ((c : Thread nD τ).loc main_arg2) (ix1 t) = BitVec.ofNat 32 l.val) :
    (Gen.V m c main_v6 : S92x960.Idx → EReal) (ix2 cls t) = if cls = l then (1 : EReal) else 0 :=
  (congrFun (table_eq m c) (ix2 cls t)).trans (table_read (m ((c : Thread nD τ).loc main_arg2)) cls t l hl)

end Cert.KernelIdeal.OneHot

end
-- ==== Proof.RCellSoftmax.lean ====
/-
  The reference's softmax, read at one entry (r, c) of the flattened [14400, 92] logits: the shifted exponential of
  the entry over the sum of the row's shifted exponentials, the shift the row's maximum taken from −∞.
-/
import proofs.«410581_j76922864271401_1_alg».proof.Proof.CostSpec
import proofs.«410581_j76922864271401_1_alg».proof.Proof.Gen.ReferenceIdeal.Read
import Idealize.ShloMosaic.Lib.ValueIdx
import Idealize.ShloMosaic.PureOps.Reduce
import Idealize.ShloMosaic.PureOps.Ideal.Laws

noncomputable section

namespace Cert.ReferenceIdeal.Cell

open Cert.ReferenceIdeal Cert.ReferenceIdeal.Gen Idealize.ShloMosaic Idealize.ShloMosaic.ValueIdx

/-- Row r of the flattened logits, as a function of the class. -/
abbrev logitRow (x0 : (⟨S16x900x92, .f32⟩ : BufTy).Contents (Elt Ideal)) (r : Fin 14400) : Fin 92 → EReal :=
  fun c => Read.val_main_v0 (F := Ideal) x0 (ix2 r c)

/-- Dropping the class axis of [14400, 92] leaves [14400]. -/
theorem reduces_classes : S14400x92.Reduces [1] S14400 := by decide

/-- A max-reduce of a [14400, 92] array over its classes, from −∞, at row r: the fold of max from −∞ over the row. -/
theorem rowFold_at (y : S14400x92.Idx → EReal) (r : Fin 14400) :
    Host.reduce (FloatOps.maximumf (F := Ideal) (φ := .f32)) y (Read.val_main_cst (F := Ideal))
        reducesTo_S14400x92_S14400_d1 h_S_ (ix1 r)
      = Finset.univ.fold max CostSpec.negInf (fun c : Fin 92 => y (ix2 r c)) := by
  refine (Host.reduce_eq_fold_single (FloatOps.maximumf (F := Ideal) (φ := .f32)) y (Read.val_main_cst (F := Ideal))
    reducesTo_S14400x92_S14400_d1 reduces_classes h_S_ (ix1 r)).trans ?_
  -- the index over row r with class c inserted on the dropped axis is (r, c)
  have hf : (y ∘ reduces_classes.lift (ix1 r)) = fun c : Fin 92 => y (ix2 r c) :=
    funext fun c => congrArg y (funext fun a => Fin.ext (by match a with | ⟨0, _⟩ => rfl | ⟨1, _⟩ => rfl))
  rw [hf]
  rfl

/-- The max-reduce over the classes, at row r. -/
theorem v1_at (x0 : (⟨S16x900x92, .f32⟩ : BufTy).Contents (Elt Ideal)) (r : Fin 14400) :
    Read.val_main_v1 (F := Ideal) x0 (ix1 r) = Finset.univ.fold max CostSpec.negInf (logitRow x0 r) := by
  unfold Read.val_main_v1
  exact rowFold_at _ r

/-- The row's maximum as both programs take it: once more against −∞. -/
theorem v3_at (x0 : (⟨S16x900x92, .f32⟩ : BufTy).Contents (Elt Ideal)) (r : Fin 14400) :
    Read.val_main_v3 (F := Ideal) x0 (ix1 r) = CostSpec.rowMax (logitRow x0 r) := by
  rw [Read.val_main_v3_apply, Read.val_main_v2_apply, Read.val_main_cst_0_apply, v1_at]
  rfl

/-- The shifted exponential at (r, c). -/
theorem v7_at (x0 : (⟨S16x900x92, .f32⟩ : BufTy).Contents (Elt Ideal)) (r : Fin 14400) (c : Fin 92) :
    Read.val_main_v7 (F := Ideal) x0 (ix2 r c) = CostSpec.expo (logitRow x0 r) c := by
  have hidx : Read.idx_main_v4 (Read.idx_main_v5 (ix2 r c)) = ix1 r := by
    funext a; match a with | ⟨0, _⟩ => rfl
  rw [Read.val_main_v7_apply, Read.val_main_v6_apply, Read.val_main_v5_apply, Read.val_main_v4_apply, hidx, v3_at]
  rfl

/-- The softmax at (r, c). -/
theorem v11_at (x0 : (⟨S16x900x92, .f32⟩ : BufTy).Contents (Elt Ideal)) (r : Fin 14400) (c : Fin 92) :
    Read.val_main_v11 (F := Ideal) x0 (ix2 r c) = CostSpec.prob (logitRow x0 r) c := by
  have hidx : Read.idx_main_v9 (Read.idx_main_v10 (ix2 r c)) = ix1 r := by
    funext a; match a with | ⟨0, _⟩ => rfl
  have hk : ∀ k : Fin 92, Read.idx_main_v8 (ix1 r) k = ix2 r k := by
    intro k; funext a; match a with | ⟨0, _⟩ => rfl | ⟨1, _⟩ => rfl
  rw [Read.val_main_v11_apply, v7_at, Read.val_main_v10_apply, Read.val_main_v9_apply, hidx, Read.val_main_v8_apply,
    Read.val_main_cst_1_apply]
  simp only [hk, v7_at]
  show Ideal.div _ (Ideal.ofBits .f32 0x00000000#32 + _) = _
  rw [Ideal.ofBits_zero_f32, zero_add]
  rfl

end Cert.ReferenceIdeal.Cell

end
-- ==== Proof.RCellGather.lean ====
/-
  The reference's gather of the target's class out of the softmax row, read at entry (r, t): when target t's label is
  a class l in range, the softmax of row r at class l.
-/
import proofs.«410581_j76922864271401_1_alg».proof.Proof.Gen.ReferenceIdeal.Read
import Idealize.ShloMosaic.Lib.ValueIdx
import Idealize.ShloMosaic.PureOps.Ideal.Laws

noncomputable section

namespace Cert.ReferenceIdeal.Cell

open Cert.ReferenceIdeal Cert.ReferenceIdeal.Gen Idealize.ShloMosaic Idealize.ShloMosaic.ValueIdx

/-- The gather's dimension numbers: one column of the [14400, 92] operand per start index, all rows of it. -/
abbrev labelGather : GatherDims S14400x92 S960x1 S14400x960 :=
  gather_S14400x92_S960x1_S14400x960_0_1_n_n_1_1_144001

/-- THE GATHER READ AT (r, t): the operand at row r and the column the start index (t, 0) names, read as a signed
    integer and clamped into [0, 91]. Axis 0 is an offset axis (its coordinate is r, from a slice starting at 0),
    axis 1 is collapsed (its coordinate is the clamped start alone). -/
theorem gather_at (x : S14400x92.Idx → EReal) (idx : IVec S960x1 32) (r : Fin 14400) (t : Fin 960) :
    Host.gather labelGather x idx (ix2 r t)
      = x (ix2 r ⟨min (idx (ix2 t 0)).toInt.toNat 91, by omega⟩) := by
  unfold Host.gather
  refine congrArg x (funext fun a => Fin.ext ?_)
  match a with
  | ⟨0, _⟩ =>
    show GatherDims.start labelGather (ix2 r t) idx 0 + GatherDims.batchCoord labelGather (ix2 r t) 0
      + GatherDims.offCoord labelGather (ix2 r t) 0 = r.val
    have h1 : GatherDims.start labelGather (ix2 r t) idx 0 = 0 := by
      unfold GatherDims.start; rw [dif_neg (by decide)]
    have h2 : GatherDims.batchCoord labelGather (ix2 r t) 0 = 0 := GatherDims.batchCoord_eq_zero _ _ _ (by decide)
    rw [h1, h2]
    simp only [Nat.zero_add]
    unfold GatherDims.offCoord
    rw [dif_pos (by decide)]
    rfl
  | ⟨1, _⟩ =>
    show GatherDims.start labelGather (ix2 r t) idx 1 + GatherDims.batchCoord labelGather (ix2 r t) 1
      + GatherDims.offCoord labelGather (ix2 r t) 1 = min (idx (ix2 t 0)).toInt.toNat 91
    have h2 : GatherDims.batchCoord labelGather (ix2 r t) 1 = 0 := GatherDims.batchCoord_eq_zero _ _ _ (by decide)
    have h3 : GatherDims.offCoord labelGather (ix2 r t) 1 = 0 := GatherDims.offCoord_eq_zero _ _ _ (by decide)
    rw [h2, h3]
    simp only [Nat.add_zero]
    unfold GatherDims.start
    rw [dif_pos (by decide)]
    -- the start index of result entry (r, t) sits at (t, 0) of the start indices
    have hsi : GatherDims.siIdx labelGather (ix2 r t)
        ⟨List.idxOf (1 : Fin S14400x92.rank) (GatherDims.startIndexMap labelGather),
          List.idxOf_lt_length_iff.2 (by decide)⟩ = ix2 t 0 := by
      funext b; refine Fin.ext ?_
      match b with
      | ⟨0, _⟩ => rfl
      | ⟨1, _⟩ => rfl
    rw [hsi]
    rfl

/-- A label below 92 is not negative as a signed word, so the wrap-around select keeps it. -/
theorem label_select (l : Fin 92) (A : BitVec 32) :
    Scalar.select (IntOp.cmpi .slt (BitVec.ofNat 32 l.val) 0#32) A (BitVec.ofNat 32 l.val) = BitVec.ofNat 32 l.val := by
  have h : (BitVec.ofNat 32 l.val).slt 0#32 = false := by revert l; decide
  have hc : IntOp.cmpi .slt (BitVec.ofNat 32 l.val) 0#32 = 0#1 := by
    show BitVec.ofBool ((BitVec.ofNat 32 l.val).slt 0#32) = 0#1
    rw [h]; rfl
  rw [hc]
  exact select_zero _ _

/-- ... and read as a signed integer and clamped into [0, 91] it is itself. -/
theorem label_clamp (l : Fin 92) : min (BitVec.ofNat 32 l.val).toInt.toNat 91 = l.val := by
  have h : (BitVec.ofNat 32 l.val).toInt.toNat = l.val := by revert l; decide
  rw [h]; omega

/-- The start index for target t, after the wrap-around select: the label itself. -/
theorem v17_at (x2 : (⟨S960, .i32⟩ : BufTy).Contents (Elt Ideal)) (t : Fin 960) (l : Fin 92)
    (hl : x2 (ix1 t) = BitVec.ofNat 32 l.val) :
    Read.val_main_v17 (F := Ideal) x2 (ix2 t 0) = BitVec.ofNat 32 l.val := by
  have hidx : Read.idx_main_v17 (ix2 t (0 : Fin 1)) = ix1 t := by
    funext a; match a with | ⟨0, _⟩ => rfl
  rw [Read.val_main_v17_apply, hidx, Read.val_main_v16_apply, Read.val_main_v13_apply, Read.val_main_v12_apply,
    Read.val_main_c_apply, hl]
  exact label_select l _

/-- The gathered probability at (r, t): the softmax of row r at the target's class. -/
theorem v18_at (x0 : (⟨S16x900x92, .f32⟩ : BufTy).Contents (Elt Ideal)) (x2 : (⟨S960, .i32⟩ : BufTy).Contents (Elt Ideal))
    (r : Fin 14400) (t : Fin 960) (l : Fin 92) (hl : x2 (ix1 t) = BitVec.ofNat 32 l.val) :
    Read.val_main_v18 (F := Ideal) x0 x2 (ix2 r t) = Read.val_main_v11 (F := Ideal) x0 (ix2 r l) := by
  unfold Read.val_main_v18
  refine (gather_at _ _ r t).trans ?_
  refine congrArg _ (congrArg (ix2 r) (Fin.ext ?_))
  show min (Read.val_main_v17 (F := Ideal) x2 (ix2 t 0)).toInt.toNat 91 = l.val
  rw [v17_at x2 t l hl]
  exact label_clamp l

end Cert.ReferenceIdeal.Cell

end
-- ==== Proof.RCellL1.lean ====
/-
  The reference's L1 distance between predicted box r and target box t: the sum, from 0, over the four coordinates of
  the absolute differences, read at entry (r, t) of the [14400, 960] array.
-/
import proofs.«410581_j76922864271401_1_alg».proof.Proof.CostSpec
import proofs.«410581_j76922864271401_1_alg».proof.Proof.Gen.ReferenceIdeal.Read
import Idealize.ShloMosaic.Lib.ValueIdx
import Idealize.ShloMosaic.PureOps.Ideal.Laws

noncomputable section

namespace Cert.ReferenceIdeal.Cell

open Cert.ReferenceIdeal Cert.ReferenceIdeal.Gen Idealize.ShloMosaic Idealize.ShloMosaic.ValueIdx

/-- One absolute coordinate difference at (r, t, k): coordinate k of box r less coordinate k of target t. -/
theorem v27_at (x1 : (⟨S16x900x4, .f32⟩ : BufTy).Contents (Elt Ideal)) (x3 : (⟨S960x4, .f32⟩ : BufTy).Contents (Elt Ideal))
    (r : Fin 14400) (t : Fin 960) (k : Fin 4) :
    Read.val_main_v27 (F := Ideal) x1 x3 (ix3 r t k)
      = CostSpec.abs' (Read.val_main_v21 (F := Ideal) x1 (ix2 r k) - x3 (ix2 t k)) := by
  have h1 : Read.idx_main_v22 (Read.idx_main_v24 (ix3 r t k)) = ix2 r k := by
    funext a; match a with | ⟨0, _⟩ => rfl | ⟨1, _⟩ => rfl
  have h3 : Read.idx_main_v23 (Read.idx_main_v25 (ix3 r t k)) = ix2 t k := by
    funext a; match a with | ⟨0, _⟩ => rfl | ⟨1, _⟩ => rfl
  rw [Read.val_main_v27_apply, Read.val_main_v26_apply, Read.val_main_v24_apply, Read.val_main_v22_apply, h1,
    Read.val_main_v25_apply, Read.val_main_v23_apply, h3]
  rfl

/-- The L1 distance at (r, t). -/
theorem v28_at (x1 : (⟨S16x900x4, .f32⟩ : BufTy).Contents (Elt Ideal)) (x3 : (⟨S960x4, .f32⟩ : BufTy).Contents (Elt Ideal))
    (r : Fin 14400) (t : Fin 960) :
    Read.val_main_v28 (F := Ideal) x1 x3 (ix2 r t)
      = CostSpec.l1 (Read.val_main_v21 (F := Ideal) x1 (ix2 r 0)) (Read.val_main_v21 (F := Ideal) x1 (ix2 r 1))
          (Read.val_main_v21 (F := Ideal) x1 (ix2 r 2)) (Read.val_main_v21 (F := Ideal) x1 (ix2 r 3))
          (x3 (ix2 t 0)) (x3 (ix2 t 1)) (x3 (ix2 t 2)) (x3 (ix2 t 3)) := by
  have hk : ∀ k : Fin 4, Read.idx_main_v28 (ix2 r t) k = ix3 r t k := by
    intro k; funext a; match a with | ⟨0, _⟩ => rfl | ⟨1, _⟩ => rfl | ⟨2, _⟩ => rfl
  rw [Read.val_main_v28_apply, Read.val_main_cst_4_apply]
  simp only [hk, v27_at]
  show Ideal.ofBits .f32 0x00000000#32 + _ = _
  rw [Ideal.ofBits_zero_f32, zero_add, Fin.sum_univ_four]
  rfl

end Cert.ReferenceIdeal.Cell

end
-- ==== Proof.RCellBox.lean ====
/-
  The predicted box r converted to corners, and the two areas: the reference's slices of the flattened [14400, 4]
  boxes, the half-extent arithmetic, the concatenation of the four corner columns, and the products of the side
  lengths, each read at one index.
-/
import proofs.«410581_j76922864271401_1_alg».proof.Proof.CostSpec
import proofs.«410581_j76922864271401_1_alg».proof.Proof.Gen.ReferenceIdeal.Read
import Idealize.ShloMosaic.Lib.ValueIdx
import Idealize.ShloMosaic.Lib.Pipeline.Value
import Idealize.ShloMosaic.PureOps.Ideal.Laws

noncomputable section

namespace Cert.ReferenceIdeal.Cell

open Cert.ReferenceIdeal Cert.ReferenceIdeal.Gen Idealize.ShloMosaic Idealize.ShloMosaic.ValueIdx

/-- Coordinate k of predicted box r: (cx, cy, w, h) for k = 0, 1, 2, 3. -/
abbrev boxCoord (x1 : (⟨S16x900x4, .f32⟩ : BufTy).Contents (Elt Ideal)) (r : Fin 14400) (k : Fin 4) : EReal :=
  Read.val_main_v21 (F := Ideal) x1 (ix2 r k)

/-- The corners of predicted box r: centre less / plus half the extent. -/
abbrev cornerX0 (x1 : (⟨S16x900x4, .f32⟩ : BufTy).Contents (Elt Ideal)) (r : Fin 14400) : EReal :=
  boxCoord x1 r 0 - CostSpec.half * boxCoord x1 r 2
abbrev cornerY0 (x1 : (⟨S16x900x4, .f32⟩ : BufTy).Contents (Elt Ideal)) (r : Fin 14400) : EReal :=
  boxCoord x1 r 1 - CostSpec.half * boxCoord x1 r 3
abbrev cornerX1 (x1 : (⟨S16x900x4, .f32⟩ : BufTy).Contents (Elt Ideal)) (r : Fin 14400) : EReal :=
  boxCoord x1 r 0 + CostSpec.half * boxCoord x1 r 2
abbrev cornerY1 (x1 : (⟨S16x900x4, .f32⟩ : BufTy).Contents (Elt Ideal)) (r : Fin 14400) : EReal :=
  boxCoord x1 r 1 + CostSpec.half * boxCoord x1 r 3

/-! ### The four coordinate columns of the predicted boxes -/

theorem v30_at (x1 : (⟨S16x900x4, .f32⟩ : BufTy).Contents (Elt Ideal)) (r : Fin 14400) :
    Read.val_main_v30 (F := Ideal) x1 (ix1 r) = boxCoord x1 r 0 := by
  have h : Read.idx_main_v29 (Read.idx_main_v30 (ix1 r)) = ix2 r 0 := by
    funext a; match a with | ⟨0, _⟩ => exact Fin.ext (Nat.div_one _) | ⟨1, _⟩ => rfl
  rw [Read.val_main_v30_apply, Read.val_main_v29_apply, h]

theorem v32_at (x1 : (⟨S16x900x4, .f32⟩ : BufTy).Contents (Elt Ideal)) (r : Fin 14400) :
    Read.val_main_v32 (F := Ideal) x1 (ix1 r) = boxCoord x1 r 1 := by
  have h : Read.idx_main_v31 (Read.idx_main_v32 (ix1 r)) = ix2 r 1 := by
    funext a; match a with | ⟨0, _⟩ => exact Fin.ext (Nat.div_one _) | ⟨1, _⟩ => rfl
  rw [Read.val_main_v32_apply, Read.val_main_v31_apply, h]

theorem v34_at (x1 : (⟨S16x900x4, .f32⟩ : BufTy).Contents (Elt Ideal)) (r : Fin 14400) :
    Read.val_main_v34 (F := Ideal) x1 (ix1 r) = boxCoord x1 r 2 := by
  have h : Read.idx_main_v33 (Read.idx_main_v34 (ix1 r)) = ix2 r 2 := by
    funext a; match a with | ⟨0, _⟩ => exact Fin.ext (Nat.div_one _) | ⟨1, _⟩ => rfl
  rw [Read.val_main_v34_apply, Read.val_main_v33_apply, h]

theorem v36_at (x1 : (⟨S16x900x4, .f32⟩ : BufTy).Contents (Elt Ideal)) (r : Fin 14400) :
    Read.val_main_v36 (F := Ideal) x1 (ix1 r) = boxCoord x1 r 3 := by
  have h : Read.idx_main_v35 (Read.idx_main_v36 (ix1 r)) = ix2 r 3 := by
    funext a; match a with | ⟨0, _⟩ => exact Fin.ext (Nat.div_one _) | ⟨1, _⟩ => rfl
  rw [Read.val_main_v36_apply, Read.val_main_v35_apply, h]

/-! ### The corners, as vectors over the boxes -/

theorem v39_at (x1 : (⟨S16x900x4, .f32⟩ : BufTy).Contents (Elt Ideal)) (r : Fin 14400) :
    Read.val_main_v39 (F := Ideal) x1 (ix1 r) = cornerX0 x1 r := by
  rw [Read.val_main_v39_apply, Read.val_main_v38_apply, Read.val_main_v37_apply, Read.val_main_cst_5_apply, v30_at, v34_at]
  rfl

theorem v42_at (x1 : (⟨S16x900x4, .f32⟩ : BufTy).Contents (Elt Ideal)) (r : Fin 14400) :
    Read.val_main_v42 (F := Ideal) x1 (ix1 r) = cornerY0 x1 r := by
  rw [Read.val_main_v42_apply, Read.val_main_v41_apply, Read.val_main_v40_apply, Read.val_main_cst_6_apply, v32_at, v36_at]
  rfl

theorem v45_at (x1 : (⟨S16x900x4, .f32⟩ : BufTy).Contents (Elt Ideal)) (r : Fin 14400) :
    Read.val_main_v45 (F := Ideal) x1 (ix1 r) = cornerX1 x1 r := by
  rw [Read.val_main_v45_apply, Read.val_main_v44_apply, Read.val_main_v43_apply, Read.val_main_cst_7_apply, v30_at, v34_at]
  rfl

theorem v48_at (x1 : (⟨S16x900x4, .f32⟩ : BufTy).Contents (Elt Ideal)) (r : Fin 14400) :
    Read.val_main_v48 (F := Ideal) x1 (ix1 r) = cornerY1 x1 r := by
  rw [Read.val_main_v48_apply, Read.val_main_v47_apply, Read.val_main_v46_apply, Read.val_main_cst_8_apply, v32_at, v36_at]
  rfl

/-! ### The concatenation of the four corner columns, read at each of its columns

  Four [14400, 1] pieces laid side by side along axis 1: column k of the result is piece k at column 0, the pieces
  before it taking up k columns. -/

section Concat
variable (p0 p1 p2 p3 : S14400x1.Idx → EReal) (r : Fin 14400)

/-- The four pieces, each with its shape. -/
abbrev pieces4 : List ((s : Shape) × (s.Idx → EReal)) :=
  [⟨S14400x1, p0⟩, ⟨S14400x1, p1⟩, ⟨S14400x1, p2⟩, ⟨S14400x1, p3⟩]

theorem concat4_at0 :
    concatenate S14400x4 (1 : Fin 2) (pieces4 p0 p1 p2 p3) concatenates_S14400x1_S14400x1_S14400x1_S14400x1_S14400x4_d1 (ix2 r 0)
      = p0 (ix2 r 0) :=
  concatenate_apply_piece (t := S14400x4) (1 : Fin 2) (pieces4 p0 p1 p2 p3) concatenates_S14400x1_S14400x1_S14400x1_S14400x1_S14400x4_d1
    (ix2 r 0) 0 (by show (0 : Nat) < 4; omega) S14400x1 p0 rfl rfl 0 rfl (ix2 r 0)
    (fun b hb => by match b with | ⟨0, _⟩ => rfl | ⟨1, _⟩ => exact absurd rfl hb) rfl

theorem concat4_at1 :
    concatenate S14400x4 (1 : Fin 2) (pieces4 p0 p1 p2 p3) concatenates_S14400x1_S14400x1_S14400x1_S14400x1_S14400x4_d1 (ix2 r 1)
      = p1 (ix2 r 0) :=
  concatenate_apply_piece (t := S14400x4) (1 : Fin 2) (pieces4 p0 p1 p2 p3) concatenates_S14400x1_S14400x1_S14400x1_S14400x1_S14400x4_d1
    (ix2 r 1) 1 (by show (1 : Nat) < 4; omega) S14400x1 p1 rfl rfl 1 rfl (ix2 r 0)
    (fun b hb => by match b with | ⟨0, _⟩ => rfl | ⟨1, _⟩ => exact absurd rfl hb) rfl

theorem concat4_at2 :
    concatenate S14400x4 (1 : Fin 2) (pieces4 p0 p1 p2 p3) concatenates_S14400x1_S14400x1_S14400x1_S14400x1_S14400x4_d1 (ix2 r 2)
      = p2 (ix2 r 0) :=
  concatenate_apply_piece (t := S14400x4) (1 : Fin 2) (pieces4 p0 p1 p2 p3) concatenates_S14400x1_S14400x1_S14400x1_S14400x1_S14400x4_d1
    (ix2 r 2) 2 (by show (2 : Nat) < 4; omega) S14400x1 p2 rfl rfl 2 rfl (ix2 r 0)
    (fun b hb => by match b with | ⟨0, _⟩ => rfl | ⟨1, _⟩ => exact absurd rfl hb) rfl

theorem concat4_at3 :
    concatenate S14400x4 (1 : Fin 2) (pieces4 p0 p1 p2 p3) concatenates_S14400x1_S14400x1_S14400x1_S14400x1_S14400x4_d1 (ix2 r 3)
      = p3 (ix2 r 0) :=
  concatenate_apply_piece (t := S14400x4) (1 : Fin 2) (pieces4 p0 p1 p2 p3) concatenates_S14400x1_S14400x1_S14400x1_S14400x1_S14400x4_d1
    (ix2 r 3) 3 (by show (3 : Nat) < 4; omega) S14400x1 p3 rfl rfl 3 rfl (ix2 r 0)
    (fun b hb => by match b with | ⟨0, _⟩ => rfl | ⟨1, _⟩ => exact absurd rfl hb) rfl

end Concat

/-- A [14400] vector broadcast to a [14400, 1] column, at (r, 0). -/
theorem colIdx (r : Fin 14400) : Read.idx_main_v49 (ix2 r (0 : Fin 1)) = ix1 r := by
  funext a; match a with | ⟨0, _⟩ => rfl

theorem v53_at0 (x1 : (⟨S16x900x4, .f32⟩ : BufTy).Contents (Elt Ideal)) (r : Fin 14400) :
    Read.val_main_v53 (F := Ideal) x1 (ix2 r 0) = cornerX0 x1 r := by
  unfold Read.val_main_v53
  refine (concat4_at0 _ _ _ _ r).trans ?_
  rw [Read.val_main_v49_apply]
  exact (congrArg _ (colIdx r)).trans (v39_at x1 r)

theorem v53_at1 (x1 : (⟨S16x900x4, .f32⟩ : BufTy).Contents (Elt Ideal)) (r : Fin 14400) :
    Read.val_main_v53 (F := Ideal) x1 (ix2 r 1) = cornerY0 x1 r := by
  unfold Read.val_main_v53
  refine (concat4_at1 _ _ _ _ r).trans ?_
  rw [Read.val_main_v50_apply]
  exact (congrArg _ (colIdx r)).trans (v42_at x1 r)

theorem v53_at2 (x1 : (⟨S16x900x4, .f32⟩ : BufTy).Contents (Elt Ideal)) (r : Fin 14400) :
    Read.val_main_v53 (F := Ideal) x1 (ix2 r 2) = cornerX1 x1 r := by
  unfold Read.val_main_v53
  refine (concat4_at2 _ _ _ _ r).trans ?_
  rw [Read.val_main_v51_apply]
  exact (congrArg _ (colIdx r)).trans (v45_at x1 r)

theorem v53_at3 (x1 : (⟨S16x900x4, .f32⟩ : BufTy).Contents (Elt Ideal)) (r : Fin 14400) :
    Read.val_main_v53 (F := Ideal) x1 (ix2 r 3) = cornerY1 x1 r := by
  unfold Read.val_main_v53
  refine (concat4_at3 _ _ _ _ r).trans ?_
  rw [Read.val_main_v52_apply]
  exact (congrArg _ (colIdx r)).trans (v48_at x1 r)

end Cert.ReferenceIdeal.Cell

end
-- ==== Proof.RCellArea.lean ====
/-
  The two areas: the predicted box's, from its corners sliced back out of the corner array, and the target box's,
  from its coordinates as given, each the product of the two side lengths, read at one box.
-/
import proofs.«410581_j76922864271401_1_alg».proof.Proof.RCellBox

noncomputable section

namespace Cert.ReferenceIdeal.Cell

open Cert.ReferenceIdeal Cert.ReferenceIdeal.Gen Idealize.ShloMosaic Idealize.ShloMosaic.ValueIdx

/-! ### The corner columns of the predicted boxes -/

theorem v55_at (x1 : (⟨S16x900x4, .f32⟩ : BufTy).Contents (Elt Ideal)) (r : Fin 14400) :
    Read.val_main_v55 (F := Ideal) x1 (ix1 r) = cornerX1 x1 r := by
  have h : Read.idx_main_v54 (Read.idx_main_v55 (ix1 r)) = ix2 r 2 := by
    funext a; match a with | ⟨0, _⟩ => exact Fin.ext (Nat.div_one _) | ⟨1, _⟩ => rfl
  rw [Read.val_main_v55_apply, Read.val_main_v54_apply, h, v53_at2]

theorem v57_at (x1 : (⟨S16x900x4, .f32⟩ : BufTy).Contents (Elt Ideal)) (r : Fin 14400) :
    Read.val_main_v57 (F := Ideal) x1 (ix1 r) = cornerX0 x1 r := by
  have h : Read.idx_main_v56 (Read.idx_main_v57 (ix1 r)) = ix2 r 0 := by
    funext a; match a with | ⟨0, _⟩ => exact Fin.ext (Nat.div_one _) | ⟨1, _⟩ => rfl
  rw [Read.val_main_v57_apply, Read.val_main_v56_apply, h, v53_at0]

theorem v60_at (x1 : (⟨S16x900x4, .f32⟩ : BufTy).Contents (Elt Ideal)) (r : Fin 14400) :
    Read.val_main_v60 (F := Ideal) x1 (ix1 r) = cornerY1 x1 r := by
  have h : Read.idx_main_v59 (Read.idx_main_v60 (ix1 r)) = ix2 r 3 := by
    funext a; match a with | ⟨0, _⟩ => exact Fin.ext (Nat.div_one _) | ⟨1, _⟩ => rfl
  rw [Read.val_main_v60_apply, Read.val_main_v59_apply, h, v53_at3]

theorem v62_at (x1 : (⟨S16x900x4, .f32⟩ : BufTy).Contents (Elt Ideal)) (r : Fin 14400) :
    Read.val_main_v62 (F := Ideal) x1 (ix1 r) = cornerY0 x1 r := by
  have h : Read.idx_main_v61 (Read.idx_main_v62 (ix1 r)) = ix2 r 1 := by
    funext a; match a with | ⟨0, _⟩ => exact Fin.ext (Nat.div_one _) | ⟨1, _⟩ => rfl
  rw [Read.val_main_v62_apply, Read.val_main_v61_apply, h, v53_at1]

/-- The predicted box's area: width times height, from the corners. -/
theorem v64_at (x1 : (⟨S16x900x4, .f32⟩ : BufTy).Contents (Elt Ideal)) (r : Fin 14400) :
    Read.val_main_v64 (F := Ideal) x1 (ix1 r)
      = (cornerX1 x1 r - cornerX0 x1 r) * (cornerY1 x1 r - cornerY0 x1 r) := by
  rw [Read.val_main_v64_apply, Read.val_main_v58_apply, Read.val_main_v63_apply, v55_at, v57_at, v60_at, v62_at]
  rfl

/-! ### The coordinate columns of the target boxes -/

theorem v66_at (x3 : (⟨S960x4, .f32⟩ : BufTy).Contents (Elt Ideal)) (t : Fin 960) :
    Read.val_main_v66 (F := Ideal) x3 (ix1 t) = x3 (ix2 t 2) := by
  have h : Read.idx_main_v65 (Read.idx_main_v66 (ix1 t)) = ix2 t 2 := by
    funext a; match a with | ⟨0, _⟩ => exact Fin.ext (Nat.div_one _) | ⟨1, _⟩ => rfl
  rw [Read.val_main_v66_apply, Read.val_main_v65_apply, h]

theorem v68_at (x3 : (⟨S960x4, .f32⟩ : BufTy).Contents (Elt Ideal)) (t : Fin 960) :
    Read.val_main_v68 (F := Ideal) x3 (ix1 t) = x3 (ix2 t 0) := by
  have h : Read.idx_main_v67 (Read.idx_main_v68 (ix1 t)) = ix2 t 0 := by
    funext a; match a with | ⟨0, _⟩ => exact Fin.ext (Nat.div_one _) | ⟨1, _⟩ => rfl
  rw [Read.val_main_v68_apply, Read.val_main_v67_apply, h]

theorem v71_at (x3 : (⟨S960x4, .f32⟩ : BufTy).Contents (Elt Ideal)) (t : Fin 960) :
    Read.val_main_v71 (F := Ideal) x3 (ix1 t) = x3 (ix2 t 3) := by
  have h : Read.idx_main_v70 (Read.idx_main_v71 (ix1 t)) = ix2 t 3 := by
    funext a; match a with | ⟨0, _⟩ => exact Fin.ext (Nat.div_one _) | ⟨1, _⟩ => rfl
  rw [Read.val_main_v71_apply, Read.val_main_v70_apply, h]

theorem v73_at (x3 : (⟨S960x4, .f32⟩ : BufTy).Contents (Elt Ideal)) (t : Fin 960) :
    Read.val_main_v73 (F := Ideal) x3 (ix1 t) = x3 (ix2 t 1) := by
  have h : Read.idx_main_v72 (Read.idx_main_v73 (ix1 t)) = ix2 t 1 := by
    funext a; match a with | ⟨0, _⟩ => exact Fin.ext (Nat.div_one _) | ⟨1, _⟩ => rfl
  rw [Read.val_main_v73_apply, Read.val_main_v72_apply, h]

/-- The target box's area, its coordinates used as corners, as given. -/
theorem v75_at (x3 : (⟨S960x4, .f32⟩ : BufTy).Contents (Elt Ideal)) (t : Fin 960) :
    Read.val_main_v75 (F := Ideal) x3 (ix1 t)
      = (x3 (ix2 t 2) - x3 (ix2 t 0)) * (x3 (ix2 t 3) - x3 (ix2 t 1)) := by
  rw [Read.val_main_v75_apply, Read.val_main_v69_apply, Read.val_main_v74_apply, v66_at, v68_at, v71_at, v73_at]
  rfl

end Cert.ReferenceIdeal.Cell

end
-- ==== Proof.RCellGiou.lean ====
/-
  The generalized IoU of predicted box r (as corners) and target box t (as given), read at entry (r, t): the overlap
  and the hull, each a product of two side lengths clipped at 0, the union from the two areas, and
  IoU − (hull − union) / hull.
-/
import proofs.«410581_j76922864271401_1_alg».proof.Proof.RCellArea

noncomputable section

namespace Cert.ReferenceIdeal.Cell

open Cert.ReferenceIdeal Cert.ReferenceIdeal.Gen Idealize.ShloMosaic Idealize.ShloMosaic.ValueIdx

/-- The overlap of box r and target t: overlap width times overlap height, each clipped at 0. -/
abbrev interOf (x1 : (⟨S16x900x4, .f32⟩ : BufTy).Contents (Elt Ideal)) (x3 : (⟨S960x4, .f32⟩ : BufTy).Contents (Elt Ideal))
    (r : Fin 14400) (t : Fin 960) : EReal :=
  max (min (cornerX1 x1 r) (x3 (ix2 t 2)) - max (cornerX0 x1 r) (x3 (ix2 t 0))) CostSpec.zero * max (min (cornerY1 x1 r) (x3 (ix2 t 3)) - max (cornerY0 x1 r) (x3 (ix2 t 1))) CostSpec.zero

/-- The union: the two areas less the overlap. -/
abbrev unionOf (x1 : (⟨S16x900x4, .f32⟩ : BufTy).Contents (Elt Ideal)) (x3 : (⟨S960x4, .f32⟩ : BufTy).Contents (Elt Ideal))
    (r : Fin 14400) (t : Fin 960) : EReal :=
  (cornerX1 x1 r - cornerX0 x1 r) * (cornerY1 x1 r - cornerY0 x1 r) + (x3 (ix2 t 2) - x3 (ix2 t 0)) * (x3 (ix2 t 3) - x3 (ix2 t 1))
    - interOf x1 x3 r t

/-- The smallest box holding both: its width times its height, each clipped at 0. -/
abbrev hullOf (x1 : (⟨S16x900x4, .f32⟩ : BufTy).Contents (Elt Ideal)) (x3 : (⟨S960x4, .f32⟩ : BufTy).Contents (Elt Ideal))
    (r : Fin 14400) (t : Fin 960) : EReal :=
  max (max (cornerX1 x1 r) (x3 (ix2 t 2)) - min (cornerX0 x1 r) (x3 (ix2 t 0))) CostSpec.zero * max (max (cornerY1 x1 r) (x3 (ix2 t 3)) - min (cornerY0 x1 r) (x3 (ix2 t 1))) CostSpec.zero

/-! ### The overlap -/

/-- The left edge of the overlap. -/
theorem v82_at0 (x1 : (⟨S16x900x4, .f32⟩ : BufTy).Contents (Elt Ideal)) (x3 : (⟨S960x4, .f32⟩ : BufTy).Contents (Elt Ideal))
    (r : Fin 14400) (t : Fin 960) :
    Read.val_main_v82 (F := Ideal) x1 x3 (ix3 r t 0) = max (cornerX0 x1 r) (x3 (ix2 t 0)) := by
  have h1 : Read.idx_main_v76 (Read.idx_main_v77 (Read.idx_main_v80 (ix3 r t (0 : Fin 2)))) = ix2 r 0 := by
    funext a; match a with | ⟨0, _⟩ => rfl | ⟨1, _⟩ => rfl
  have h3 : Read.idx_main_v78 (Read.idx_main_v79 (Read.idx_main_v81 (ix3 r t (0 : Fin 2)))) = ix2 t 0 := by
    funext a; match a with | ⟨0, _⟩ => rfl | ⟨1, _⟩ => rfl
  rw [Read.val_main_v82_apply, Read.val_main_v80_apply, Read.val_main_v77_apply, Read.val_main_v76_apply, h1,
    v53_at0, Read.val_main_v81_apply, Read.val_main_v79_apply, Read.val_main_v78_apply, h3]
  rfl

/-- The top edge of the overlap. -/
theorem v82_at1 (x1 : (⟨S16x900x4, .f32⟩ : BufTy).Contents (Elt Ideal)) (x3 : (⟨S960x4, .f32⟩ : BufTy).Contents (Elt Ideal))
    (r : Fin 14400) (t : Fin 960) :
    Read.val_main_v82 (F := Ideal) x1 x3 (ix3 r t 1) = max (cornerY0 x1 r) (x3 (ix2 t 1)) := by
  have h1 : Read.idx_main_v76 (Read.idx_main_v77 (Read.idx_main_v80 (ix3 r t (1 : Fin 2)))) = ix2 r 1 := by
    funext a; match a with | ⟨0, _⟩ => rfl | ⟨1, _⟩ => rfl
  have h3 : Read.idx_main_v78 (Read.idx_main_v79 (Read.idx_main_v81 (ix3 r t (1 : Fin 2)))) = ix2 t 1 := by
    funext a; match a with | ⟨0, _⟩ => rfl | ⟨1, _⟩ => rfl
  rw [Read.val_main_v82_apply, Read.val_main_v80_apply, Read.val_main_v77_apply, Read.val_main_v76_apply, h1,
    v53_at1, Read.val_main_v81_apply, Read.val_main_v79_apply, Read.val_main_v78_apply, h3]
  rfl

/-- The right edge of the overlap. -/
theorem v89_at0 (x1 : (⟨S16x900x4, .f32⟩ : BufTy).Contents (Elt Ideal)) (x3 : (⟨S960x4, .f32⟩ : BufTy).Contents (Elt Ideal))
    (r : Fin 14400) (t : Fin 960) :
    Read.val_main_v89 (F := Ideal) x1 x3 (ix3 r t 0) = min (cornerX1 x1 r) (x3 (ix2 t 2)) := by
  have h1 : Read.idx_main_v83 (Read.idx_main_v84 (Read.idx_main_v87 (ix3 r t (0 : Fin 2)))) = ix2 r 2 := by
    funext a; match a with | ⟨0, _⟩ => rfl | ⟨1, _⟩ => rfl
  have h3 : Read.idx_main_v85 (Read.idx_main_v86 (Read.idx_main_v88 (ix3 r t (0 : Fin 2)))) = ix2 t 2 := by
    funext a; match a with | ⟨0, _⟩ => rfl | ⟨1, _⟩ => rfl
  rw [Read.val_main_v89_apply, Read.val_main_v87_apply, Read.val_main_v84_apply, Read.val_main_v83_apply, h1,
    v53_at2, Read.val_main_v88_apply, Read.val_main_v86_apply, Read.val_main_v85_apply, h3]
  rfl

/-- The bottom edge of the overlap. -/
theorem v89_at1 (x1 : (⟨S16x900x4, .f32⟩ : BufTy).Contents (Elt Ideal)) (x3 : (⟨S960x4, .f32⟩ : BufTy).Contents (Elt Ideal))
    (r : Fin 14400) (t : Fin 960) :
    Read.val_main_v89 (F := Ideal) x1 x3 (ix3 r t 1) = min (cornerY1 x1 r) (x3 (ix2 t 3)) := by
  have h1 : Read.idx_main_v83 (Read.idx_main_v84 (Read.idx_main_v87 (ix3 r t (1 : Fin 2)))) = ix2 r 3 := by
    funext a; match a with | ⟨0, _⟩ => rfl | ⟨1, _⟩ => rfl
  have h3 : Read.idx_main_v85 (Read.idx_main_v86 (Read.idx_main_v88 (ix3 r t (1 : Fin 2)))) = ix2 t 3 := by
    funext a; match a with | ⟨0, _⟩ => rfl | ⟨1, _⟩ => rfl
  rw [Read.val_main_v89_apply, Read.val_main_v87_apply, Read.val_main_v84_apply, Read.val_main_v83_apply, h1,
    v53_at3, Read.val_main_v88_apply, Read.val_main_v86_apply, Read.val_main_v85_apply, h3]
  rfl

/-- The overlap's width, clipped at 0 (the source clips with 0 on the left of the maximum). -/
theorem v91_at0 (x1 : (⟨S16x900x4, .f32⟩ : BufTy).Contents (Elt Ideal)) (x3 : (⟨S960x4, .f32⟩ : BufTy).Contents (Elt Ideal))
    (r : Fin 14400) (t : Fin 960) :
    Read.val_main_v91 (F := Ideal) x1 x3 (ix3 r t 0) = max (min (cornerX1 x1 r) (x3 (ix2 t 2)) - max (cornerX0 x1 r) (x3 (ix2 t 0))) CostSpec.zero := by
  rw [Read.val_main_v91_apply, Read.val_main_call0_v1_apply, Read.val_main_call0_v0_apply, Read.val_main_cst_9_apply,
    Read.val_main_v90_apply, v89_at0, v82_at0]
  show max _ _ = max _ _
  exact max_comm _ _

/-- The overlap's height, clipped at 0. -/
theorem v91_at1 (x1 : (⟨S16x900x4, .f32⟩ : BufTy).Contents (Elt Ideal)) (x3 : (⟨S960x4, .f32⟩ : BufTy).Contents (Elt Ideal))
    (r : Fin 14400) (t : Fin 960) :
    Read.val_main_v91 (F := Ideal) x1 x3 (ix3 r t 1) = max (min (cornerY1 x1 r) (x3 (ix2 t 3)) - max (cornerY0 x1 r) (x3 (ix2 t 1))) CostSpec.zero := by
  rw [Read.val_main_v91_apply, Read.val_main_call0_v1_apply, Read.val_main_call0_v0_apply, Read.val_main_cst_9_apply,
    Read.val_main_v90_apply, v89_at1, v82_at1]
  show max _ _ = max _ _
  exact max_comm _ _

/-- The overlap's width as a [14400, 960] array, at (r, t). -/
theorem v93_at (x1 : (⟨S16x900x4, .f32⟩ : BufTy).Contents (Elt Ideal)) (x3 : (⟨S960x4, .f32⟩ : BufTy).Contents (Elt Ideal))
    (r : Fin 14400) (t : Fin 960) :
    Read.val_main_v93 (F := Ideal) x1 x3 (ix2 r t) = max (min (cornerX1 x1 r) (x3 (ix2 t 2)) - max (cornerX0 x1 r) (x3 (ix2 t 0))) CostSpec.zero := by
  have h : Read.idx_main_v92 (Read.idx_main_v93 (ix2 r t)) = ix3 r t 0 := by
    funext a; match a with
    | ⟨0, _⟩ => exact Fin.ext (by have := t.isLt; show (r.val * 960 + t.val) / 960 = r.val; omega)
    | ⟨1, _⟩ => exact Fin.ext (by have := t.isLt; show (r.val * 960 + t.val) / 1 % 960 = t.val; omega)
    | ⟨2, _⟩ => rfl
  rw [Read.val_main_v93_apply, Read.val_main_v92_apply, h, v91_at0]

/-- The overlap's height as a [14400, 960] array, at (r, t). -/
theorem v95_at (x1 : (⟨S16x900x4, .f32⟩ : BufTy).Contents (Elt Ideal)) (x3 : (⟨S960x4, .f32⟩ : BufTy).Contents (Elt Ideal))
    (r : Fin 14400) (t : Fin 960) :
    Read.val_main_v95 (F := Ideal) x1 x3 (ix2 r t) = max (min (cornerY1 x1 r) (x3 (ix2 t 3)) - max (cornerY0 x1 r) (x3 (ix2 t 1))) CostSpec.zero := by
  have h : Read.idx_main_v94 (Read.idx_main_v95 (ix2 r t)) = ix3 r t 1 := by
    funext a; match a with
    | ⟨0, _⟩ => exact Fin.ext (by have := t.isLt; show (r.val * 960 + t.val) / 960 = r.val; omega)
    | ⟨1, _⟩ => exact Fin.ext (by have := t.isLt; show (r.val * 960 + t.val) / 1 % 960 = t.val; omega)
    | ⟨2, _⟩ => rfl
  rw [Read.val_main_v95_apply, Read.val_main_v94_apply, h, v91_at1]

theorem v96_at (x1 : (⟨S16x900x4, .f32⟩ : BufTy).Contents (Elt Ideal)) (x3 : (⟨S960x4, .f32⟩ : BufTy).Contents (Elt Ideal))
    (r : Fin 14400) (t : Fin 960) :
    Read.val_main_v96 (F := Ideal) x1 x3 (ix2 r t) = interOf x1 x3 r t := by
  rw [Read.val_main_v96_apply, v93_at, v95_at]
  rfl

/-! ### The union and the IoU -/

theorem v102_at (x1 : (⟨S16x900x4, .f32⟩ : BufTy).Contents (Elt Ideal)) (x3 : (⟨S960x4, .f32⟩ : BufTy).Contents (Elt Ideal))
    (r : Fin 14400) (t : Fin 960) :
    Read.val_main_v102 (F := Ideal) x1 x3 (ix2 r t) = unionOf x1 x3 r t := by
  have h1 : Read.idx_main_v97 (Read.idx_main_v99 (ix2 r t)) = ix1 r := by
    funext a; match a with | ⟨0, _⟩ => rfl
  have h2 : Read.idx_main_v98 (Read.idx_main_v100 (ix2 r t)) = ix1 t := by
    funext a; match a with | ⟨0, _⟩ => rfl
  rw [Read.val_main_v102_apply, Read.val_main_v101_apply, Read.val_main_v99_apply, Read.val_main_v97_apply, h1, v64_at,
    Read.val_main_v100_apply, Read.val_main_v98_apply, h2, v75_at, v96_at]
  rfl

theorem v103_at (x1 : (⟨S16x900x4, .f32⟩ : BufTy).Contents (Elt Ideal)) (x3 : (⟨S960x4, .f32⟩ : BufTy).Contents (Elt Ideal))
    (r : Fin 14400) (t : Fin 960) :
    Read.val_main_v103 (F := Ideal) x1 x3 (ix2 r t) = Ideal.div (interOf x1 x3 r t) (unionOf x1 x3 r t) := by
  rw [Read.val_main_v103_apply, v96_at, v102_at]
  rfl

/-! ### The hull -/

/-- The left edge of the hull. -/
theorem v110_at0 (x1 : (⟨S16x900x4, .f32⟩ : BufTy).Contents (Elt Ideal)) (x3 : (⟨S960x4, .f32⟩ : BufTy).Contents (Elt Ideal))
    (r : Fin 14400) (t : Fin 960) :
    Read.val_main_v110 (F := Ideal) x1 x3 (ix3 r t 0) = min (cornerX0 x1 r) (x3 (ix2 t 0)) := by
  have h1 : Read.idx_main_v104 (Read.idx_main_v105 (Read.idx_main_v108 (ix3 r t (0 : Fin 2)))) = ix2 r 0 := by
    funext a; match a with | ⟨0, _⟩ => rfl | ⟨1, _⟩ => rfl
  have h3 : Read.idx_main_v106 (Read.idx_main_v107 (Read.idx_main_v109 (ix3 r t (0 : Fin 2)))) = ix2 t 0 := by
    funext a; match a with | ⟨0, _⟩ => rfl | ⟨1, _⟩ => rfl
  rw [Read.val_main_v110_apply, Read.val_main_v108_apply, Read.val_main_v105_apply, Read.val_main_v104_apply, h1,
    v53_at0, Read.val_main_v109_apply, Read.val_main_v107_apply, Read.val_main_v106_apply, h3]
  rfl

/-- The top edge of the hull. -/
theorem v110_at1 (x1 : (⟨S16x900x4, .f32⟩ : BufTy).Contents (Elt Ideal)) (x3 : (⟨S960x4, .f32⟩ : BufTy).Contents (Elt Ideal))
    (r : Fin 14400) (t : Fin 960) :
    Read.val_main_v110 (F := Ideal) x1 x3 (ix3 r t 1) = min (cornerY0 x1 r) (x3 (ix2 t 1)) := by
  have h1 : Read.idx_main_v104 (Read.idx_main_v105 (Read.idx_main_v108 (ix3 r t (1 : Fin 2)))) = ix2 r 1 := by
    funext a; match a with | ⟨0, _⟩ => rfl | ⟨1, _⟩ => rfl
  have h3 : Read.idx_main_v106 (Read.idx_main_v107 (Read.idx_main_v109 (ix3 r t (1 : Fin 2)))) = ix2 t 1 := by
    funext a; match a with | ⟨0, _⟩ => rfl | ⟨1, _⟩ => rfl
  rw [Read.val_main_v110_apply, Read.val_main_v108_apply, Read.val_main_v105_apply, Read.val_main_v104_apply, h1,
    v53_at1, Read.val_main_v109_apply, Read.val_main_v107_apply, Read.val_main_v106_apply, h3]
  rfl

/-- The right edge of the hull. -/
theorem v117_at0 (x1 : (⟨S16x900x4, .f32⟩ : BufTy).Contents (Elt Ideal)) (x3 : (⟨S960x4, .f32⟩ : BufTy).Contents (Elt Ideal))
    (r : Fin 14400) (t : Fin 960) :
    Read.val_main_v117 (F := Ideal) x1 x3 (ix3 r t 0) = max (cornerX1 x1 r) (x3 (ix2 t 2)) := by
  have h1 : Read.idx_main_v111 (Read.idx_main_v112 (Read.idx_main_v115 (ix3 r t (0 : Fin 2)))) = ix2 r 2 := by
    funext a; match a with | ⟨0, _⟩ => rfl | ⟨1, _⟩ => rfl
  have h3 : Read.idx_main_v113 (Read.idx_main_v114 (Read.idx_main_v116 (ix3 r t (0 : Fin 2)))) = ix2 t 2 := by
    funext a; match a with | ⟨0, _⟩ => rfl | ⟨1, _⟩ => rfl
  rw [Read.val_main_v117_apply, Read.val_main_v115_apply, Read.val_main_v112_apply, Read.val_main_v111_apply, h1,
    v53_at2, Read.val_main_v116_apply, Read.val_main_v114_apply, Read.val_main_v113_apply, h3]
  rfl

/-- The bottom edge of the hull. -/
theorem v117_at1 (x1 : (⟨S16x900x4, .f32⟩ : BufTy).Contents (Elt Ideal)) (x3 : (⟨S960x4, .f32⟩ : BufTy).Contents (Elt Ideal))
    (r : Fin 14400) (t : Fin 960) :
    Read.val_main_v117 (F := Ideal) x1 x3 (ix3 r t 1) = max (cornerY1 x1 r) (x3 (ix2 t 3)) := by
  have h1 : Read.idx_main_v111 (Read.idx_main_v112 (Read.idx_main_v115 (ix3 r t (1 : Fin 2)))) = ix2 r 3 := by
    funext a; match a with | ⟨0, _⟩ => rfl | ⟨1, _⟩ => rfl
  have h3 : Read.idx_main_v113 (Read.idx_main_v114 (Read.idx_main_v116 (ix3 r t (1 : Fin 2)))) = ix2 t 3 := by
    funext a; match a with | ⟨0, _⟩ => rfl | ⟨1, _⟩ => rfl
  rw [Read.val_main_v117_apply, Read.val_main_v115_apply, Read.val_main_v112_apply, Read.val_main_v111_apply, h1,
    v53_at3, Read.val_main_v116_apply, Read.val_main_v114_apply, Read.val_main_v113_apply, h3]
  rfl

/-- The hull's width, clipped at 0. -/
theorem v119_at0 (x1 : (⟨S16x900x4, .f32⟩ : BufTy).Contents (Elt Ideal)) (x3 : (⟨S960x4, .f32⟩ : BufTy).Contents (Elt Ideal))
    (r : Fin 14400) (t : Fin 960) :
    Read.val_main_v119 (F := Ideal) x1 x3 (ix3 r t 0) = max (max (cornerX1 x1 r) (x3 (ix2 t 2)) - min (cornerX0 x1 r) (x3 (ix2 t 0))) CostSpec.zero := by
  rw [Read.val_main_v119_apply, Read.val_main_call1_v1_apply, Read.val_main_call1_v0_apply, Read.val_main_cst_10_apply,
    Read.val_main_v118_apply, v117_at0, v110_at0]
  show max _ _ = max _ _
  exact max_comm _ _

/-- The hull's height, clipped at 0. -/
theorem v119_at1 (x1 : (⟨S16x900x4, .f32⟩ : BufTy).Contents (Elt Ideal)) (x3 : (⟨S960x4, .f32⟩ : BufTy).Contents (Elt Ideal))
    (r : Fin 14400) (t : Fin 960) :
    Read.val_main_v119 (F := Ideal) x1 x3 (ix3 r t 1) = max (max (cornerY1 x1 r) (x3 (ix2 t 3)) - min (cornerY0 x1 r) (x3 (ix2 t 1))) CostSpec.zero := by
  rw [Read.val_main_v119_apply, Read.val_main_call1_v1_apply, Read.val_main_call1_v0_apply, Read.val_main_cst_10_apply,
    Read.val_main_v118_apply, v117_at1, v110_at1]
  show max _ _ = max _ _
  exact max_comm _ _

/-- The hull's width as a [14400, 960] array, at (r, t). -/
theorem v121_at (x1 : (⟨S16x900x4, .f32⟩ : BufTy).Contents (Elt Ideal)) (x3 : (⟨S960x4, .f32⟩ : BufTy).Contents (Elt Ideal))
    (r : Fin 14400) (t : Fin 960) :
    Read.val_main_v121 (F := Ideal) x1 x3 (ix2 r t) = max (max (cornerX1 x1 r) (x3 (ix2 t 2)) - min (cornerX0 x1 r) (x3 (ix2 t 0))) CostSpec.zero := by
  have h : Read.idx_main_v120 (Read.idx_main_v121 (ix2 r t)) = ix3 r t 0 := by
    funext a; match a with
    | ⟨0, _⟩ => exact Fin.ext (by have := t.isLt; show (r.val * 960 + t.val) / 960 = r.val; omega)
    | ⟨1, _⟩ => exact Fin.ext (by have := t.isLt; show (r.val * 960 + t.val) / 1 % 960 = t.val; omega)
    | ⟨2, _⟩ => rfl
  rw [Read.val_main_v121_apply, Read.val_main_v120_apply, h, v119_at0]

/-- The hull's height as a [14400, 960] array, at (r, t). -/
theorem v123_at (x1 : (⟨S16x900x4, .f32⟩ : BufTy).Contents (Elt Ideal)) (x3 : (⟨S960x4, .f32⟩ : BufTy).Contents (Elt Ideal))
    (r : Fin 14400) (t : Fin 960) :
    Read.val_main_v123 (F := Ideal) x1 x3 (ix2 r t) = max (max (cornerY1 x1 r) (x3 (ix2 t 3)) - min (cornerY0 x1 r) (x3 (ix2 t 1))) CostSpec.zero := by
  have h : Read.idx_main_v122 (Read.idx_main_v123 (ix2 r t)) = ix3 r t 1 := by
    funext a; match a with
    | ⟨0, _⟩ => exact Fin.ext (by have := t.isLt; show (r.val * 960 + t.val) / 960 = r.val; omega)
    | ⟨1, _⟩ => exact Fin.ext (by have := t.isLt; show (r.val * 960 + t.val) / 1 % 960 = t.val; omega)
    | ⟨2, _⟩ => rfl
  rw [Read.val_main_v123_apply, Read.val_main_v122_apply, h, v119_at1]

theorem v124_at (x1 : (⟨S16x900x4, .f32⟩ : BufTy).Contents (Elt Ideal)) (x3 : (⟨S960x4, .f32⟩ : BufTy).Contents (Elt Ideal))
    (r : Fin 14400) (t : Fin 960) :
    Read.val_main_v124 (F := Ideal) x1 x3 (ix2 r t) = hullOf x1 x3 r t := by
  rw [Read.val_main_v124_apply, v121_at, v123_at]
  rfl

/-! ### The generalized IoU -/

theorem v127_at (x1 : (⟨S16x900x4, .f32⟩ : BufTy).Contents (Elt Ideal)) (x3 : (⟨S960x4, .f32⟩ : BufTy).Contents (Elt Ideal))
    (r : Fin 14400) (t : Fin 960) :
    Read.val_main_v127 (F := Ideal) x1 x3 (ix2 r t)
      = CostSpec.giou (boxCoord x1 r 0) (boxCoord x1 r 1) (boxCoord x1 r 2) (boxCoord x1 r 3)
          (x3 (ix2 t 0)) (x3 (ix2 t 1)) (x3 (ix2 t 2)) (x3 (ix2 t 3)) := by
  rw [Read.val_main_v127_apply, v103_at, Read.val_main_v126_apply, Read.val_main_v125_apply, v124_at, v102_at]
  rfl

end Cert.ReferenceIdeal.Cell

end
-- ==== Proof.RefCell.lean ====
/-
  The reference's result read at one entry (b, n, t).
-/
import proofs.«410581_j76922864271401_1_alg».proof.Proof.CostSpec
import proofs.«410581_j76922864271401_1_alg».proof.Proof.Gen.ReferenceIdeal.Read
import proofs.«410581_j76922864271401_1_alg».proof.Proof.RCellSoftmax
import proofs.«410581_j76922864271401_1_alg».proof.Proof.RCellGather
import proofs.«410581_j76922864271401_1_alg».proof.Proof.RCellL1
import proofs.«410581_j76922864271401_1_alg».proof.Proof.RCellGiou
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Cell

open Cert.ReferenceIdeal Cert.ReferenceIdeal.Gen Idealize.ShloMosaic Idealize.ShloMosaic.ValueIdx

/-- Prediction (b, n) is row 900 b + n of the flattened [14400, ·] arrays. -/
abbrev rowOf (b : Fin 16) (n : Fin 900) : Fin 14400 :=
  ⟨b.val * 900 + n.val, by have := b.isLt; have := n.isLt; omega⟩

/-- The flattened logits at row (b, n) are the logits of prediction (b, n). -/
theorem v0_row (x0 : (⟨S16x900x92, .f32⟩ : BufTy).Contents (Elt Ideal)) (b : Fin 16) (n : Fin 900) (c : Fin 92) :
    Read.val_main_v0 (F := Ideal) x0 (ix2 (rowOf b n) c) = x0 (ix3 b n c) := by
  rw [Read.val_main_v0_apply]
  refine congrArg x0 (funext fun a => ?_)
  have hb := b.isLt; have hn := n.isLt; have hc := c.isLt
  match a with
  | ⟨0, _⟩ => exact Fin.ext (by show ((b.val * 900 + n.val) * 92 + c.val) / 82800 = b.val; omega)
  | ⟨1, _⟩ => exact Fin.ext (by show ((b.val * 900 + n.val) * 92 + c.val) / 92 % 900 = n.val; omega)
  | ⟨2, _⟩ => exact Fin.ext (by show ((b.val * 900 + n.val) * 92 + c.val) % 92 = c.val; omega)

/-- The flattened boxes at row (b, n) are the box of prediction (b, n). -/
theorem v21_row (x1 : (⟨S16x900x4, .f32⟩ : BufTy).Contents (Elt Ideal)) (b : Fin 16) (n : Fin 900) (k : Fin 4) :
    Read.val_main_v21 (F := Ideal) x1 (ix2 (rowOf b n) k) = x1 (ix3 b n k) := by
  rw [Read.val_main_v21_apply]
  refine congrArg x1 (funext fun a => ?_)
  have hb := b.isLt; have hn := n.isLt; have hk := k.isLt
  match a with
  | ⟨0, _⟩ => exact Fin.ext (by show ((b.val * 900 + n.val) * 4 + k.val) / 3600 = b.val; omega)
  | ⟨1, _⟩ => exact Fin.ext (by show ((b.val * 900 + n.val) * 4 + k.val) / 4 % 900 = n.val; omega)
  | ⟨2, _⟩ => exact Fin.ext (by show ((b.val * 900 + n.val) * 4 + k.val) % 4 = k.val; omega)

/-- Entry (b, n, t) of the [16, 900, 960] result is entry (900 b + n, t) of the flattened one. -/
theorem v138_idx (b : Fin 16) (n : Fin 900) (t : Fin 960) :
    Read.idx_main_v138 (ix3 b n t) = ix2 (rowOf b n) t := by
  funext a
  have hb := b.isLt; have hn := n.isLt; have ht := t.isLt
  match a with
  | ⟨0, _⟩ => exact Fin.ext (by show ((b.val * 900 + n.val) * 960 + t.val) / 960 = b.val * 900 + n.val; omega)
  | ⟨1, _⟩ => exact Fin.ext (by show ((b.val * 900 + n.val) * 960 + t.val) % 960 = t.val; omega)

/-- Entry (b, n, t) of the reference's result is the pair cost of prediction (b, n) against target `t`, the class
    probability read off the softmax row at the target's label, when that label is the class `l` (in range). -/
theorem ref_apply (x0 : (⟨S16x900x92, .f32⟩ : BufTy).Contents (Elt Ideal)) (x1 : (⟨S16x900x4, .f32⟩ : BufTy).Contents (Elt Ideal))
    (x2 : (⟨S960, .i32⟩ : BufTy).Contents (Elt Ideal)) (x3 : (⟨S960x4, .f32⟩ : BufTy).Contents (Elt Ideal))
    (b : Fin 16) (n : Fin 900) (t : Fin 960) (l : Fin 92) (hl : x2 (ix1 t) = BitVec.ofNat 32 l.val) :
    Read.val_main_v138 (F := Ideal) x0 x1 x2 x3 (ix3 b n t)
      = CostSpec.cost (CostSpec.prob (fun c' : Fin 92 => x0 (ix3 b n c')) l)
          (x1 (ix3 b n (0 : Fin 4))) (x1 (ix3 b n (1 : Fin 4))) (x1 (ix3 b n (2 : Fin 4))) (x1 (ix3 b n (3 : Fin 4)))
          (x3 (ix2 t (0 : Fin 4))) (x3 (ix2 t (1 : Fin 4))) (x3 (ix2 t (2 : Fin 4))) (x3 (ix2 t (3 : Fin 4))) := by
  -- the logits' row and the box of prediction (b, n), in the flattened arrays
  have hrow : logitRow x0 (rowOf b n) = fun c' : Fin 92 => x0 (ix3 b n c') := funext fun c' => v0_row x0 b n c'
  -- the weighted sum, its three terms read at (900 b + n, t)
  rw [Read.val_main_v138_apply, v138_idx, Read.val_main_v137_apply, Read.val_main_v134_apply,
    Read.val_main_v131_apply, Read.val_main_v130_apply, Read.val_main_cst_12_apply,
    Read.val_main_v20_apply, Read.val_main_v19_apply, Read.val_main_cst_3_apply, v18_at x0 x2 _ t l hl, v11_at, hrow,
    Read.val_main_v133_apply, Read.val_main_v132_apply, Read.val_main_cst_13_apply, v28_at,
    Read.val_main_v136_apply, Read.val_main_v135_apply, Read.val_main_cst_14_apply,
    Read.val_main_v129_apply, Read.val_main_v128_apply, Read.val_main_cst_11_apply, v127_at]
  simp only [boxCoord, v21_row]
  rfl

end Cert.ReferenceIdeal.Cell

end
-- ==== Proof.lean ====
/-
  The matching-cost kernel against its reference, over the extended reals.

  Both programs compute, for every prediction (b, q) of 16 × 900 and every target t of 960,

    cost = 1 · (1 − p) + 5 · L1 + 2 · (1 − GIoU),

  p the softmax probability of the target's class, L1 the sum of the absolute differences of the four box coordinates,
  GIoU taken between the predicted box converted to corners and the target box as given (Proof/CostSpec.lean).

  The kernel takes p as the product of the softmax row with a one-hot column of a class table its host code builds from
  the labels (table[c, t] = 1 when label t is c, else 0); the reference gathers the softmax row at the label. For a label
  that is a class, 0 ≤ label < 92, the product is the row's entry at the label — a sum in which every other term is a
  product with 0 — and the gather's index is the label itself; the precondition says every label is a class. The rest
  of the two computations is the same arithmetic, written over blocks of 128 predictions on one side and over all 14400
  predictions at once on the other; the L1 sum is grouped differently, which addition on the extended reals does not see.

  The kernel writes the result in 16 × 8 blocks of 128 rows; 8 · 128 = 1024 > 900, so the last block of every batch hangs
  over the array's end, is fetched and written back cut to 4 rows, and the tail rows of the staging buffers hold
  words nothing names. An entry of a row depends on that row of the logits and of the boxes only, so the rows that are
  written back do not depend on the tails (Proof/KData.lean); the blocks cover the result (Proof/KFinal.lean).

  The frames: the word-level kernel's run (Proof/BFrame.lean, nothing said of its output), the idealized kernel's
  (Proof/KRun.lean) and the reference's generated run.
-/
import proofs.«410581_j76922864271401_1_alg».proof.Defs
import proofs.«410581_j76922864271401_1_alg».proof.Proof.Gen.Kernel
import proofs.«410581_j76922864271401_1_alg».proof.Proof.Gen.KernelIdeal
import proofs.«410581_j76922864271401_1_alg».proof.Proof.Gen.ReferenceIdeal
import proofs.«410581_j76922864271401_1_alg».proof.Proof.Gen.ReferenceIdeal.Run
import proofs.«410581_j76922864271401_1_alg».proof.Proof.Gen.ReferenceIdeal.Read
import proofs.«410581_j76922864271401_1_alg».proof.Proof.Gen.Pre_finite_inputs
import proofs.«410581_j76922864271401_1_alg».proof.Proof.BFrame
import proofs.«410581_j76922864271401_1_alg».proof.Proof.KValue
import proofs.«410581_j76922864271401_1_alg».proof.Proof.OneHot
import proofs.«410581_j76922864271401_1_alg».proof.Proof.Labels
import proofs.«410581_j76922864271401_1_alg».proof.Proof.RefCell
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel runs and leaves its arguments as they were. -/
theorem frame_k : Cert.frame_Kernel := fun m ρ _ => Cert.Kernel.BFrame.frame m ρ

/-- The idealized kernel likewise. -/
theorem frame_ki : Cert.frame_KernelIdeal := fun m ρ _ => Cert.KernelIdeal.Data.frame m ρ

/-- The reference likewise: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two results agree entry by entry: at (b, q, t) both are the pair cost, the kernel's class probability a product
    with the one-hot column of label t, the reference's the softmax row's entry at label t. -/
theorem algebraic : Cert.algebraic_KernelIdeal_ReferenceIdeal := by
  intro m ρ m' ρ' hpre hagree
  refine ⟨fun c => Cert.KernelIdeal.Data.costArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (Cert.KernelIdeal.Gen.V m c Cert.KernelIdeal.main_v6), Cert.KernelIdeal.Data.run_value m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v138_eq, (hagree c).1, (hagree c).2.1, (hagree c).2.2.1, (hagree c).2.2.2]
  funext i
  obtain ⟨b, q, t, rfl⟩ : ∃ (b : Fin 16) (q : Fin 900) (t : Fin 960), i = ix3 b q t :=
    ⟨⟨(i 0).val, (i 0).isLt⟩, ⟨(i 1).val, (i 1).isLt⟩, ⟨(i 2).val, (i 2).isLt⟩, eq_ix3 i⟩
  obtain ⟨l, hl⟩ := Cert.Labels.label_of_pre _ _ _ _ (hpre c) t
  rw [Cert.ReferenceIdeal.Cell.ref_apply _ _ _ _ b q t l hl]
  show _ = Cert.KernelIdeal.Data.cell _ _ _ _ b q t
  unfold Cert.KernelIdeal.Data.cell
  rw [Cert.Labels.sum_onehot _ l _ (fun cc => Cert.KernelIdeal.OneHot.onehot_apply m c cc t l hl)]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
